-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x320000x64 : Shape := ⟨3, ![4, 320000, 64]⟩
abbrev S4x320000 : Shape := ⟨2, ![4, 320000]⟩
abbrev S4x10000x64 : Shape := ⟨3, ![4, 10000, 64]⟩
abbrev S_ : Shape := ⟨0, ![]⟩

class Facts : Prop where
  bcast_S_S4x320000x64 : S_.BroadcastsInDim S4x320000x64 (![] : Fin 0 → Fin S4x320000x64.rank)
  reducesTo_S4x320000x64_S_d0_1_2 : S4x320000x64.ReducesTo [0, 1, 2] S_
  h_S_ : 0 < S_.numel
  bcast_S_S4x10000x64 : S_.BroadcastsInDim S4x10000x64 (![] : Fin 0 → Fin S4x10000x64.rank)
  reducesTo_S4x10000x64_S_d0_1_2 : S4x10000x64.ReducesTo [0, 1, 2] S_
  bcast_S_S4x320000 : S_.BroadcastsInDim S4x320000 (![] : Fin 0 → Fin S4x320000.rank)
  reducesTo_S4x320000_S_d0_1 : S4x320000.ReducesTo [0, 1] S_

variable [Facts]

def fn {F : FTy → Type} [FloatOps F] (main_arg0 : FVec F S4x320000x64 .f32) (main_arg1 : IVec S4x320000 32) (main_arg2 : FVec F S4x10000x64 .f32) : IVec S_ 1 :=
  let main_v0 : FVec F S4x320000x64 .f32 := Host.absf main_arg0
  let main_cst : FVec F S_ .f32 := constant S_ .f32 0x7F800000#32
  let main_v1 : FVec F S4x320000x64 .f32 := broadcastInDim S4x320000x64 ![] bcast_S_S4x320000x64 main_cst
  let main_v2 : IVec S4x320000x64 1 := cmpf .olt main_v0 main_v1
  let main_c : IVec S_ 1 := constantI S_ 1 1#1
  let main_v3 : IVec S_ 1 := (fun x v => Host.reduce IntOp.andi x v reducesTo_S4x320000x64_S_d0_1_2 h_S_) main_v2 main_c
  let main_v4 : FVec F S4x10000x64 .f32 := Host.absf main_arg2
  let main_cst_0 : FVec F S_ .f32 := constant S_ .f32 0x7F800000#32
  let main_v5 : FVec F S4x10000x64 .f32 := broadcastInDim S4x10000x64 ![] bcast_S_S4x10000x64 main_cst_0
  let main_v6 : IVec S4x10000x64 1 := cmpf .olt main_v4 main_v5
  let main_c_1 : IVec S_ 1 := constantI S_ 1 1#1
  let main_v7 : IVec S_ 1 := (fun x v => Host.reduce IntOp.andi x v reducesTo_S4x10000x64_S_d0_1_2 h_S_) main_v6 main_c_1
  let main_v8 : IVec S_ 1 := andi main_v3 main_v7
  let main_c_2 : IVec S_ 32 := constantI S_ 32 0#32
  let main_v9 : IVec S4x320000 32 := broadcastInDim S4x320000 ![] bcast_S_S4x320000 main_c_2
  let main_v10 : IVec S4x320000 1 := cmpi .sge main_arg1 main_v9
  let main_c_3 : IVec S_ 1 := constantI S_ 1 1#1
  let main_v11 : IVec S_ 1 := (fun x v => Host.reduce IntOp.andi x v reducesTo_S4x320000_S_d0_1 h_S_) main_v10 main_c_3
  let main_v12 : IVec S_ 1 := andi main_v8 main_v11
  main_v12
-- ==== Kernel.lean ====
abbrev S4x320000x64 : Shape := ⟨3, ![4, 320000, 64]⟩
abbrev S4x320000 : Shape := ⟨2, ![4, 320000]⟩
abbrev S4x10000x64 : Shape := ⟨3, ![4, 10000, 64]⟩
abbrev S_ : Shape := ⟨0, ![]⟩
abbrev S4x327680x64 : Shape := ⟨3, ![4, 327680, 64]⟩
abbrev S4x327680 : Shape := ⟨2, ![4, 327680]⟩
abbrev S4x640x4x128 : Shape := ⟨4, ![4, 640, 4, 128]⟩
abbrev S1x16384x64 : Shape := ⟨3, ![1, 16384, 64]⟩
abbrev S1x32x4x128 : Shape := ⟨4, ![1, 32, 4, 128]⟩
abbrev S1x2000x64 : Shape := ⟨3, ![1, 2000, 64]⟩
abbrev S2000x64 : Shape := ⟨2, ![2000, 64]⟩
abbrev S1x512x64 : Shape := ⟨3, ![1, 512, 64]⟩
abbrev S512x64 : Shape := ⟨2, ![512, 64]⟩
abbrev S1x1x4x128 : Shape := ⟨4, ![1, 1, 4, 128]⟩
abbrev S4x128 : Shape := ⟨2, ![4, 128]⟩
abbrev S512 : Shape := ⟨1, ![512]⟩
abbrev S2000x512 : Shape := ⟨2, ![2000, 512]⟩
abbrev S1x512 : Shape := ⟨2, ![1, 512]⟩

abbrev nBuf : Space → Nat
  | .hbm => 11
  | .vmem => 7
  | .smem => 0
  | _ => 0

abbrev bufTy : (tb : Table) → Fin (tcTables nBuf tb) → BufTy
  | .hbm, ⟨0, _⟩ => ⟨S4x320000x64, .f32⟩
  | .hbm, ⟨1, _⟩ => ⟨S4x320000, .i32⟩
  | .hbm, ⟨2, _⟩ => ⟨S4x10000x64, .f32⟩
  | .hbm, ⟨3, _⟩ => ⟨S_, .i32⟩
  | .hbm, ⟨4, _⟩ => ⟨S_, .f32⟩
  | .hbm, ⟨5, _⟩ => ⟨S4x327680x64, .f32⟩
  | .hbm, ⟨6, _⟩ => ⟨S_, .i32⟩
  | .hbm, ⟨7, _⟩ => ⟨S_, .i32⟩
  | .hbm, ⟨8, _⟩ => ⟨S4x327680, .i32⟩
  | .hbm, ⟨9, _⟩ => ⟨S4x640x4x128, .i32⟩
  | .hbm, ⟨10, _⟩ => ⟨S4x10000x64, .f32⟩
  | .local _ .vmem, ⟨0, _⟩ => ⟨S1x16384x64, .f32⟩
  | .local _ .vmem, ⟨1, _⟩ => ⟨S1x16384x64, .f32⟩
  | .local _ .vmem, ⟨2, _⟩ => ⟨S1x32x4x128, .i32⟩
  | .local _ .vmem, ⟨3, _⟩ => ⟨S1x32x4x128, .i32⟩
  | .local _ .vmem, ⟨4, _⟩ => ⟨S1x2000x64, .f32⟩
  | .local _ .vmem, ⟨5, _⟩ => ⟨S1x2000x64, .f32⟩
  | .local _ .vmem, ⟨6, _⟩ => ⟨S2000x64, .f32⟩
  | _, _ => ⟨S4x320000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 20], ![false, false, false]⟩

@[reducible] def k0_t1_loop : Scf.Loop 32 :=
  let c0_i32_1 : BitVec 32 := 0#32
  let c32_i32 : BitVec 32 := 32#32
  let v4 : BitVec 32 := Scalar.addi c0_i32_1 c32_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg7 : BitVec 32 := Scf.iv c0_i32_1 c1_i32 k0_t1
  let c512_i32 : BitVec 32 := 512#32
  let v9 : BitVec 32 := Scalar.muli arg7 c512_i32
  v9
def k0_off1 (k0_t1 : Fin k0_t1_loop.trips) : Fin 3 → Nat :=
  let c0_7 : Index := 0#32
  let c0_i32_1 : BitVec 32 := 0#32
  let c1_i32 : BitVec 32 := 1#32
  let arg7 : BitVec 32 := Scf.iv c0_i32_1 c1_i32 k0_t1
  let c512_i32 : BitVec 32 := 512#32
  let v9 : BitVec 32 := Scalar.muli arg7 c512_i32
  let v10 : BitVec 32 := v9
  let v11 : Index := Scalar.indexCast v10
  let c0_8 : Index := 0#32
  ![0, v11.toNat, 0]
def k0_off2 (k0_t1 : Fin k0_t1_loop.trips) : Fin 4 → Nat :=
  let c0_9 : Index := 0#32
  let c0_i32_1 : BitVec 32 := 0#32
  let c1_i32 : BitVec 32 := 1#32
  let arg7 : BitVec 32 := Scf.iv c0_i32_1 c1_i32 k0_t1
  let v14 : Index := Scalar.indexCast arg7
  let c0_10 : Index := 0#32
  let c0_11 : Index := 0#32
  ![0, v14.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x32x4x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  pads_S4x320000x64_S4x327680x64_000_076800_000 : S4x320000x64.Pads (![0, 0, 0] : Fin 3 → Nat) ![0, 7680, 0] ![0, 0, 0] S4x327680x64
  h_S_ : 0 < S_.numel
  pads_S4x320000_S4x327680_000_076800 : S4x320000.Pads (![0, 0] : Fin 2 → Nat) ![0, 7680] ![0, 0] S4x327680
  shapeCasts_S4x327680_S4x640x4x128 : S4x327680.ShapeCasts S4x640x4x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  h_S1x512x64 : 0 < S1x512x64.numel
  shapeCasts_S1x512x64_S512x64 : S1x512x64.ShapeCasts S512x64
  h_S1x1x4x128 : 0 < S1x1x4x128.numel
  shapeCasts_S1x1x4x128_S4x128 : S1x1x4x128.ShapeCasts S4x128
  shapeCasts_S4x128_S512 : S4x128.ShapeCasts S512
  bitsLt_bf16_f32 : FTy.bits .bf16 < FTy.bits .f32
  iota_S2000x512_d0_w32 : S2000x512.Iotas .tc 32 [0]
  shapeCasts_S512_S1x512 : S512.ShapeCasts S1x512
  shapeCasts_S1x512_S1x512 : S1x512.ShapeCasts S1x512
  broadcasts_S1x512_S2000x512 : S1x512.Broadcasts S2000x512
  natLt_1_32 : 1 < 32
  inb_S1x2000x64_S1x2000x64_0_0_0 : ∀ a, (![0, 0, 0] : Fin 3 → Nat) a + S1x2000x64.size a ≤ S1x2000x64.size a
  h_S1x2000x64 : 0 < S1x2000x64.numel
  shapeCasts_S1x2000x64_S2000x64 : S1x2000x64.ShapeCasts S2000x64
  shapeCasts_S2000x64_S1x2000x64 : S2000x64.ShapeCasts S1x2000x64
  dot_S2000x512_S512x64_S2000x64_1_0_0_1_n_n_wf : DotDims.WF S2000x512 S512x64 S2000x64 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x512x64.size a ≤ S1x16384x64.size a
  k0_off2_inb : ∀ k0_t1 : Fin k0_t1_loop.trips, ∀ a, (k0_off2 k0_t1) a + S1x1x4x128.size a ≤ S1x32x4x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x64.size a ≤ S4x327680x64.size a
  hwx0_0 : ∀ i : grid0.Coords, EltTy.bits .f32 = 32 ∨ (Rect.block (s := S4x327680x64) S1x16384x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x4x128.size a ≤ S4x640x4x128.size a
  hwx0_1 : ∀ i : grid0.Coords, EltTy.bits .i32 = 32 ∨ (Rect.block (s := S4x640x4x128) S1x32x4x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2000x64.size a ≤ S4x10000x64.size a
  hwx0_2 : ∀ i : grid0.Coords, EltTy.bits .f32 = 32 ∨ (Rect.block (s := S4x10000x64) S1x2000x64.size (cc0_transform_2 i) (hinb0_2 i)).WholeWords (EltTy.packing .f32)

variable [Facts₀]

def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf

abbrev win0_0 : Pipeline.Window sig grid0 :=
  Pipeline.Window.ofSpec (Memref.whole main_v0) S1x16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x32x4x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x320000x64 : Shape := ⟨3, ![4, 320000, 64]⟩
abbrev S4x320000 : Shape := ⟨2, ![4, 320000]⟩
abbrev S4x10000x64 : Shape := ⟨3, ![4, 10000, 64]⟩
abbrev S4 : Shape := ⟨1, ![4]⟩
abbrev S4x1 : Shape := ⟨2, ![4, 1]⟩
abbrev S_ : Shape := ⟨0, ![]⟩
abbrev S4x320000x1 : Shape := ⟨3, ![4, 320000, 1]⟩
abbrev S4x320000x2 : Shape := ⟨3, ![4, 320000, 2]⟩

abbrev nBuf : Space → Nat
  | .hbm => 26
  | .vmem => 0
  | .smem => 0
  | _ => 0

abbrev bufTy : (tb : Table) → Fin (tcTables nBuf tb) → BufTy
  | .hbm, ⟨0, _⟩ => ⟨S4x320000x64, .f32⟩
  | .hbm, ⟨1, _⟩ => ⟨S4x320000, .i32⟩
  | .hbm, ⟨2, _⟩ => ⟨S4x10000x64, .f32⟩
  | .hbm, ⟨3, _⟩ => ⟨S4, .i32⟩
  | .hbm, ⟨4, _⟩ => ⟨S4x1, .i32⟩
  | .hbm, ⟨5, _⟩ => ⟨S_, .f32⟩
  | .hbm, ⟨6, _⟩ => ⟨S4x10000x64, .f32⟩
  | .hbm, ⟨7, _⟩ => ⟨S_, .i32⟩
  | .hbm, ⟨8, _⟩ => ⟨S4x1, .i32⟩
  | .hbm, ⟨9, _⟩ => ⟨S4x1, .i1⟩
  | .hbm, ⟨10, _⟩ => ⟨S_, .i32⟩
  | .hbm, ⟨11, _⟩ => ⟨S4x1, .i32⟩
  | .hbm, ⟨12, _⟩ => ⟨S4x1, .i32⟩
  | .hbm, ⟨13, _⟩ => ⟨S4x1, .i32⟩
  | .hbm, ⟨14, _⟩ => ⟨S_, .i32⟩
  | .hbm, ⟨15, _⟩ => ⟨S4x320000, .i32⟩
  | .hbm, ⟨16, _⟩ => ⟨S4x320000, .i1⟩
  | .hbm, ⟨17, _⟩ => ⟨S_, .i32⟩
  | .hbm, ⟨18, _⟩ => ⟨S4x320000, .i32⟩
  | .hbm, ⟨19, _⟩ => ⟨S4x320000, .i32⟩
  | .hbm, ⟨20, _⟩ => ⟨S4x320000, .i32⟩
  | .hbm, ⟨21, _⟩ => ⟨S4x320000, .i32⟩
  | .hbm, ⟨22, _⟩ => ⟨S4x320000x1, .i32⟩
  | .hbm, ⟨23, _⟩ => ⟨S4x320000x1, .i32⟩
  | .hbm, ⟨24, _⟩ => ⟨S4x320000x2, .i32⟩
  | .hbm, ⟨25, _⟩ => ⟨S4x10000x64, .f32⟩
  | _, _ => ⟨S4x320000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S4_S4x1_0 : S4.BroadcastsInDim S4x1 (![0] : Fin 1 → Fin S4x1.rank)
  bcast_S_S4x10000x64 : S_.BroadcastsInDim S4x10000x64 (![] : Fin 0 → Fin S4x10000x64.rank)
  bcast_S_S4x1 : S_.BroadcastsInDim S4x1 (![] : Fin 0 → Fin S4x1.rank)
  bcast_S_S4x320000 : S_.BroadcastsInDim S4x320000 (![] : Fin 0 → Fin S4x320000.rank)
  bcast_S4x1_S4x320000_0_1 : S4x1.BroadcastsInDim S4x320000 (![0, 1] : Fin 2 → Fin S4x320000.rank)
  bcast_S4x320000_S4x320000x1_0_1 : S4x320000.BroadcastsInDim S4x320000x1 (![0, 1] : Fin 2 → Fin S4x320000x1.rank)
  concatenates_S4x320000x1_S4x320000x1_S4x320000x2_d2 : Shape.Concatenates [S4x320000x1, S4x320000x1] S4x320000x2 2
  scatter_S4x10000x64_S4x320000x2_S4x320000x64_2_01_01_2_wf : ScatterDims.WF S4x10000x64 S4x320000x2 S4x320000x64 [2] [0, 1] [0, 1] 2

variable [Facts₀]

def scatter_S4x10000x64_S4x320000x2_S4x320000x64_2_01_01_2 : ScatterDims S4x10000x64 S4x320000x2 S4x320000x64 where
  updateWindowDims := [2]
  insertedWindowDims := [0, 1]
  scatterDimsToOperandDims := [0, 1]
  indexVectorDim := 2
  wf := scatter_S4x10000x64_S4x320000x2_S4x320000x64_2_01_01_2_wf

class Facts : Prop extends Facts₀ where

variable [Facts]
-- ==== Proof.KDefs.lean ====
/-
  The kernel body's arithmetic as pure functions of the staged blocks.

  One trip k of the body's loop reads rows 512k … 512k+511 of the staged message block and chunk k of the staged
  index block, and stores into the accumulator the accumulator plus the product of the 2000 × 512 one-hot matrix
  (row r, column j is 1 exactly when index word j of the chunk equals r + 2000 · (node tile)) with the 512 × 64
  message rows. The loop is the 32-fold iteration of that step.
-/
import proofs.«418181_j61710090109692_2_alg».proof.Proof.Gen.KernelIdeal.Skeleton
import Idealize.ShloMosaic.Lib.ValueIdx

noncomputable section

namespace Cert.KernelIdeal.Hand

open Cert.KernelIdeal Cert.KernelIdeal.Gen Idealize.ShloMosaic Idealize.ShloMosaic.ValueIdx

variable {F : FTy → Type} [FloatOps F]

/-- Rows 512k … 512k+511 of a staged message block. -/
def msgChunk (x0 : Vec F S1x16384x64 .f32) (k : Fin 32) : Vec F S1x512x64 .f32 :=
  fun y => x0 (ix3 (0 : Fin 1) (⟨k.val * 512 + (y 1).val, by have h : (y 1).val < 512 := (y 1).isLt; have := k.isLt; omega⟩ : Fin 16384)
    (⟨(y 2).val, (y 2).isLt⟩ : Fin 64))

/-- Chunk k (4 × 128 words) of a staged index block. -/
def idxChunk (x1 : Vec F S1x32x4x128 .i32) (k : Fin 32) : Vec F S1x1x4x128 .i32 :=
  fun y => x1 (ix4 (0 : Fin 1) k (⟨(y 2).val, (y 2).isLt⟩ : Fin 4) (⟨(y 3).val, (y 3).isLt⟩ : Fin 128))

/-- What trip k stores into the accumulator, over what it finds there. -/
def tripStep (i : grid0.Coords) (x0 : Vec F S1x16384x64 .f32) (x1 : Vec F S1x32x4x128 .i32) (k : Fin 32)
    (acc : Vec F S2000x64 .f32) : Vec F S2000x64 .f32 :=
  k0_pay2 i (msgChunk x0 k) (idxChunk x1 k) acc

/-- The accumulator after the first n trips (n ≤ 32), from the contents `a` at loop entry. -/
def loopFold (i : grid0.Coords) (x0 : Vec F S1x16384x64 .f32) (x1 : Vec F S1x32x4x128 .i32) (a : Vec F S2000x64 .f32) :
    ℕ → Vec F S2000x64 .f32
  | 0 => a
  | n + 1 => if h : n < 32 then tripStep i x0 x1 ⟨n, h⟩ (loopFold i x0 x1 a n) else loopFold i x0 x1 a n

end Cert.KernelIdeal.Hand

end
-- ==== Proof.TripFold.lean ====
/-
  What the body's run leaves in the accumulator and in the output block, as the 32-trip fold.

  Every store of the body writes a whole buffer, so the contents after a run are the last store's value: for the
  accumulator the fold of the trip step from the zero fill (first edge tile) or from what the point before left
  (later edge tiles); for the output block that accumulator, reshaped.

  The road: one trip's piece list is a single whole-buffer store whose payload is the trip step of the two chunks the
  trip loads and of the contents it finds (`tripfold_trip`); a whole-buffer store, last, leaves its payload whatever
  came before (`tripfold_read_cons_whole`); so the contents after n trips are the n-fold iteration, by induction on n
  (`tripfold_read_self`), and after at least one trip they no longer depend on the contents the stores were made over
  (`tripfold_read_any`). The four statements read the run's piece lists against these.
-/
import proofs.«418181_j61710090109692_2_alg».proof.Proof.Gen.KernelIdeal.Frame
import proofs.«418181_j61710090109692_2_alg».proof.Proof.KDefs
import Idealize.ShloMosaic.Lib.Pipeline.Value

noncomputable section

namespace Cert.KernelIdeal.Hand

open Cert.KernelIdeal Cert.KernelIdeal.Gen Idealize.ShloMosaic Idealize.ShloMosaic.TcCoe Idealize.SL.Sem

variable {F : FTy → Type} [FloatOps F]

/-! ## The trip count -/

/-- The loop runs 32 trips. -/
theorem tripfold_trips : k0_t1_loop.trips = 32 := by decide +kernel

/-- The same count, spelt over the loop's literal bounds … -/
theorem tripfold_T : Scf.trips (0#32) (Scalar.addi 0#32 32#32) 1#32 = 32 := by decide +kernel

/-- … and over its named bounds. -/
theorem tripfold_T' : Scf.trips k0_t1_loop.lb k0_t1_loop.ub k0_t1_loop.st = 32 := by decide +kernel

/-- The fold's successor step, below 32. -/
theorem tripfold_loopFold_succ (i : grid0.Coords) (x0 : Vec F S1x16384x64 .f32) (x1 : Vec F S1x32x4x128 .i32) (a : Vec F S2000x64 .f32)
    (n : ℕ) (hn : n < 32) : loopFold i x0 x1 a (n + 1) = tripStep i x0 x1 ⟨n, hn⟩ (loopFold i x0 x1 a n) := by
  rw [loopFold, dif_pos hn]

/-! ## What one trip loads -/

/-- Trip k's load of the message block, at offsets (0, 512k, 0) and extents 1 × 512 × 64, is rows 512k … 512k+511. -/
theorem tripfold_ld_msg (x0 : Vec F S1x16384x64 .f32) (k : Fin k0_t1_loop.trips) (hk : k.val < 32) :
    View.ld x0 (Rect.unit (s := S1x16384x64) (k0_off1 k) S1x512x64.size (k0_off1_inb k)) = msgChunk x0 ⟨k.val, hk⟩ := by
  funext y
  show x0 _ = x0 _
  congr 1
  funext a
  apply Fin.ext
  rw [LoadRect.idx_apply]
  simp only [Rect.off_unit, Rect.stride_unit, k0_off1_eq]
  match a with
  | ⟨0, _⟩ =>
    have h : (y 0).val < 1 := (y 0).isLt
    show (0 : ℕ) + 1 * (y 0).val = 0
    omega
  | ⟨1, _⟩ =>
    show 512 * k.val + 1 * (y 1).val = k.val * 512 + (y 1).val
    omega
  | ⟨2, _⟩ =>
    show (0 : ℕ) + 1 * (y 2).val = (y 2).val
    omega

/-- Trip k's load of the index block, at offsets (0, k, 0, 0) and extents 1 × 1 × 4 × 128, is chunk k. -/
theorem tripfold_ld_idx (x1 : Vec F S1x32x4x128 .i32) (k : Fin k0_t1_loop.trips) (hk : k.val < 32) :
    View.ld x1 (Rect.unit (s := S1x32x4x128) (k0_off2 k) S1x1x4x128.size (k0_off2_inb k)) = idxChunk x1 ⟨k.val, hk⟩ := by
  funext y
  show x1 _ = x1 _
  congr 1
  funext a
  apply Fin.ext
  rw [LoadRect.idx_apply]
  simp only [Rect.off_unit, Rect.stride_unit, k0_off2_eq]
  match a with
  | ⟨0, _⟩ =>
    have h : (y 0).val < 1 := (y 0).isLt
    show (0 : ℕ) + 1 * (y 0).val = 0
    omega
  | ⟨1, _⟩ =>
    have h : (y 1).val < 1 := (y 1).isLt
    show k.val + 1 * (y 1).val = k.val
    omega
  | ⟨2, _⟩ =>
    show (0 : ℕ) + 1 * (y 2).val = (y 2).val
    omega
  | ⟨3, _⟩ =>
    show (0 : ℕ) + 1 * (y 3).val = (y 3).val
    omega

/-! ## One trip's piece -/

/-- ONE TRIP, on whole memrefs whose message and index buffers hold `x0` and `x1`: its pieces are the single store of the
    whole accumulator, with payload the trip step of the contents it finds there. (The one place the trip's definition
    is opened.) -/
theorem tripfold_trip (c : Dev nD) (i : grid0.Coords) (arg3 : Memref sig .tc .vmem S1x16384x64 .f32) (harg3 : arg3.IsWhole) (arg4 : Memref sig .tc .vmem S1x32x4x128 .i32) (harg4 : arg4.IsWhole) (arg5 : Memref sig .tc .vmem S1x2000x64 .f32) (harg5 : arg5.IsWhole) (arg6 : Memref sig .tc .vmem S2000x64 .f32) (harg6 : arg6.IsWhole)
    (x0 : Vec F S1x16384x64 .f32) (x1 : Vec F S1x32x4x128 .i32) (k : Fin k0_t1_loop.trips) (hk : k.val < 32) (f6 : BufTy.Contents (Elt F) arg6.view.ty) :
    tripL_k0_t1 (F := F) Variants.none c none i arg3 harg3 arg4 harg4 arg5 harg5 arg6 harg6 (harg3.unread x0) (harg4.unread x1) k f6
      = [⟨Rect.unit (s := S2000x64) ![0, 0] S2000x64.size inb_S2000x64_S2000x64_0_0,
          tripStep i x0 x1 ⟨k.val, hk⟩ (arg6.view.read (Elt F) f6)⟩] := by
  unfold tripL_k0_t1
  unfold trip_k0_t1
  dsimp only
  simp only [View.readAt_eq_ld, harg3.read_unread, harg4.read_unread]
  rw [tripfold_ld_msg x0 k hk, tripfold_ld_idx x1 k hk, View.ld_unit_zero (S := S2000x64) (by decide)]
  rfl

/-- A store through the whole-shape rectangle, last, leaves its payload: whatever the earlier stores and the prior
    contents. -/
theorem tripfold_read_cons_whole {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  funext y
  have e := View.read_writes_cons_emb v f (Rect.whole S) w L y
  rw [Rect.emb_whole_apply] at e
  exact e

/-! ## The trips, folded -/

section Fold

variable (c : Dev nD) (i : grid0.Coords) (arg3 : Memref sig .tc .vmem S1x16384x64 .f32) (harg3 : arg3.IsWhole) (arg4 : Memref sig .tc .vmem S1x32x4x128 .i32) (harg4 : arg4.IsWhole) (arg5 : Memref sig .tc .vmem S1x2000x64 .f32) (harg5 : arg5.IsWhole) (arg6 : Memref sig .tc .vmem S2000x64 .f32) (harg6 : arg6.IsWhole)
  (x0 : Vec F S1x16384x64 .f32) (x1 : Vec F S1x32x4x128 .i32)

local notation "PB" => pb_k0_t1 (F := F) Variants.none c none i arg3 harg3 arg4 harg4 arg5 harg5 arg6 harg6 (harg3.unread x0) (harg4.unread x1)

/-- The pieces of the first n + 1 trips (n < 32) from contents `G` at loop entry: trip n's whole-accumulator store, its
    payload the trip step of what the first n trips left, in front of the first n trips' pieces. -/
theorem tripfold_pb_succ (G : BufTy.Contents (Elt F) arg6.view.ty) (n : ℕ) (hn : n < 32) :
    PB G (n + 1) = (⟨Rect.unit (s := S2000x64) ![0, 0] S2000x64.size inb_S2000x64_S2000x64_0_0,
        tripStep i x0 x1 ⟨n, hn⟩ (arg6.view.read (Elt F) (arg6.view.writes (Elt F) G (PB G n)))⟩ : View.Piece (Elt F) S2000x64 .f32) :: PB G n := by
  have hk : n < k0_t1_loop.trips := by rw [tripfold_trips]; exact hn
  have e1 := pb_k0_t1_succ (F := F) Variants.none c none i arg3 harg3 arg4 harg4 arg5 harg5 arg6 harg6 (harg3.unread x0) (harg4.unread x1) G ⟨n, hk⟩
  have e2 := tripfold_trip c i arg3 harg3 arg4 harg4 arg5 harg5 arg6 harg6 x0 x1 ⟨n, hk⟩ hn (arg6.view.writes (Elt F) G (PB G n))
  rw [e2] at e1
  exact e1

/-- Written over ANY contents `f`, the first n + 1 trips' pieces read as the trip step of what the first n trips left
    (over the entry contents `G`): the last store covers the accumulator. -/
theorem tripfold_read_succ (f G : BufTy.Contents (Elt F) arg6.view.ty) (n : ℕ) (hn : n < 32) :
    arg6.view.read (Elt F) (arg6.view.writes (Elt F) f (PB G (n + 1)))
      = tripStep i x0 x1 ⟨n, hn⟩ (arg6.view.read (Elt F) (arg6.view.writes (Elt F) G (PB G n))) := by
  rw [tripfold_pb_succ c i arg3 harg3 arg4 harg4 arg5 harg5 arg6 harg6 x0 x1 G n hn]
  exact tripfold_read_cons_whole arg6.view f (by decide) inb_S2000x64_S2000x64_0_0 _ _

/-- After the first n ≤ 32 trips from entry contents `G` the accumulator reads the n-fold iteration of the trip step
    from what `G` reads: by induction on n. -/
theorem tripfold_read_self (G : BufTy.Contents (Elt F) arg6.view.ty) :
    ∀ n : ℕ, n ≤ 32 → arg6.view.read (Elt F) (arg6.view.writes (Elt F) G (PB G n)) = loopFold i x0 x1 (arg6.view.read (Elt F) G) n
  | 0, _ => rfl
  | n + 1, hn => by
    have hn' : n < 32 := hn
    rw [tripfold_read_succ c i arg3 harg3 arg4 harg4 arg5 harg5 arg6 harg6 x0 x1 G G n hn',
      tripfold_read_self G n (Nat.le_of_lt hn'), tripfold_loopFold_succ i x0 x1 _ n hn']

/-- After at least one trip the same holds with the pieces written over any contents. -/
theorem tripfold_read_any (f G : BufTy.Contents (Elt F) arg6.view.ty) (n : ℕ) (hn : n < 32) :
    arg6.view.read (Elt F) (arg6.view.writes (Elt F) f (PB G (n + 1))) = loopFold i x0 x1 (arg6.view.read (Elt F) G) (n + 1) := by
  rw [tripfold_read_succ c i arg3 harg3 arg4 harg4 arg5 harg5 arg6 harg6 x0 x1 f G n hn,
    tripfold_read_self c i arg3 harg3 arg4 harg4 arg5 harg5 arg6 harg6 x0 x1 G n (Nat.le_of_lt hn), tripfold_loopFold_succ i x0 x1 _ n hn]

/-- All 32 trips: written over any contents, their pieces read as the 32-fold iteration from what the entry contents
    read. -/
theorem tripfold_read_32 (f G : BufTy.Contents (Elt F) arg6.view.ty) :
    arg6.view.read (Elt F) (arg6.view.writes (Elt F) f (PB G 32)) = loopFold i x0 x1 (arg6.view.read (Elt F) G) 32 :=
  tripfold_read_any c i arg3 harg3 arg4 harg4 arg5 harg5 arg6 harg6 x0 x1 f G 31 (by decide)

end Fold

/-! ## The four statements -/

/-- First edge tile: the accumulator ends at the fold from the zero fill. -/
theorem sout0_A_0_eq (c : Dev nD) (i : grid0.Coords) (arg3 : Memref sig .tc .vmem S1x16384x64 .f32) (harg3 : arg3.IsWhole) (arg4 : Memref sig .tc .vmem S1x32x4x128 .i32) (harg4 : arg4.IsWhole) (arg5 : Memref sig .tc .vmem S1x2000x64 .f32) (harg5 : arg5.IsWhole) (hc0 : cond0_0 i)
    (x0 : Vec F S1x16384x64 .f32) (x1 : Vec F S1x32x4x128 .i32) :
    sout0_A_0 c i arg3 harg3 arg4 harg4 arg5 harg5 scM0_0 (Memref.isWhole_whole _) hc0 x0 x1 = loopFold i x0 x1 (k0_pay1 (F := F)) 32 := by
  -- the pieces: the 32 trips' (from the accumulator after the fill) in front of the fill's one whole-buffer store
  unfold sout0_A_0
  unfold kernelRun0_A
  dsimp only
  sl_unfold_words
  rw [tripfold_T, View.writes_append]
  refine (tripfold_read_32 c i arg3 harg3 arg4 harg4 arg5 harg5 scM0_0 (Memref.isWhole_whole _) x0 x1 _ _).trans ?_
  refine congrArg (fun a => loopFold i x0 x1 a 32) ?_
  -- the fill leaves its payload
  exact tripfold_read_cons_whole _ _ (by decide) inb_S2000x64_S2000x64_0_0 _ []

/-- Later edge tiles: the accumulator ends at the fold from what the point before left. -/
theorem sout0_B_0_eq (c : Dev nD) (i : grid0.Coords) (arg3 : Memref sig .tc .vmem S1x16384x64 .f32) (harg3 : arg3.IsWhole) (arg4 : Memref sig .tc .vmem S1x32x4x128 .i32) (harg4 : arg4.IsWhole) (arg5 : Memref sig .tc .vmem S1x2000x64 .f32) (harg5 : arg5.IsWhole) (hc0 : ¬cond0_0 i)
    (x0 : Vec F S1x16384x64 .f32) (x1 : Vec F S1x32x4x128 .i32) (xs0 : Vec F S2000x64 .f32) :
    sout0_B_0 c i arg3 harg3 arg4 harg4 arg5 harg5 scM0_0 (Memref.isWhole_whole _) hc0 x0 x1 xs0 = loopFold i x0 x1 xs0 32 := by
  -- the pieces: the 32 trips', from the contents that read `xs0`
  unfold sout0_B_0
  unfold kernelRun0_B
  dsimp only
  sl_unfold_words
  rw [tripfold_T]
  refine (tripfold_read_32 c i arg3 harg3 arg4 harg4 arg5 harg5 scM0_0 (Memref.isWhole_whole _) x0 x1 _ _).trans ?_
  refine congrArg (fun a => loopFold i x0 x1 a 32) ?_
  exact Memref.IsWhole.read_unread _ xs0

/-- First edge tile: the output block ends at that accumulator, reshaped. -/
theorem out0_A_2_eq (c : Dev nD) (i : grid0.Coords) (arg3 : Memref sig .tc .vmem S1x16384x64 .f32) (harg3 : arg3.IsWhole) (arg4 : Memref sig .tc .vmem S1x32x4x128 .i32) (harg4 : arg4.IsWhole) (arg5 : Memref sig .tc .vmem S1x2000x64 .f32) (harg5 : arg5.IsWhole) (hc0 : cond0_0 i)
    (x0 : Vec F S1x16384x64 .f32) (x1 : Vec F S1x32x4x128 .i32) :
    out0_A_2 c i arg3 harg3 arg4 harg4 arg5 harg5 scM0_0 (Memref.isWhole_whole _) hc0 x0 x1 = k0_pay3 (loopFold i x0 x1 (k0_pay1 (F := F)) 32) := by
  -- the one piece: the whole output block, its payload the reshape of the whole accumulator loaded after the loop
  unfold out0_A_2
  unfold kernelRun0_A
  dsimp only
  sl_unfold_words
  refine (tripfold_read_cons_whole (S := S1x2000x64) _ _ (by decide) inb_S1x2000x64_S1x2000x64_0_0_0 _ []).trans ?_
  refine congrArg k0_pay3 ?_
  rw [View.readAt_eq_ld, View.ld_unit_zero (S := S2000x64) (by decide), tripfold_T', View.writes_append]
  refine (tripfold_read_32 c i arg3 harg3 arg4 harg4 arg5 harg5 scM0_0 (Memref.isWhole_whole _) x0 x1 _ _).trans ?_
  refine congrArg (fun a => loopFold i x0 x1 a 32) ?_
  exact tripfold_read_cons_whole _ _ (by decide) inb_S2000x64_S2000x64_0_0 _ []

/-- Later edge tiles: the output block ends at that accumulator, reshaped. -/
theorem out0_B_2_eq (c : Dev nD) (i : grid0.Coords) (arg3 : Memref sig .tc .vmem S1x16384x64 .f32) (harg3 : arg3.IsWhole) (arg4 : Memref sig .tc .vmem S1x32x4x128 .i32) (harg4 : arg4.IsWhole) (arg5 : Memref sig .tc .vmem S1x2000x64 .f32) (harg5 : arg5.IsWhole) (hc0 : ¬cond0_0 i)
    (x0 : Vec F S1x16384x64 .f32) (x1 : Vec F S1x32x4x128 .i32) (xs0 : Vec F S2000x64 .f32) :
    out0_B_2 c i arg3 harg3 arg4 harg4 arg5 harg5 scM0_0 (Memref.isWhole_whole _) hc0 x0 x1 xs0 = k0_pay3 (loopFold i x0 x1 xs0 32) := by
  unfold out0_B_2
  unfold kernelRun0_B
  dsimp only
  sl_unfold_words
  refine (tripfold_read_cons_whole (S := S1x2000x64) _ _ (by decide) inb_S1x2000x64_S1x2000x64_0_0_0 _ []).trans ?_
  refine congrArg k0_pay3 ?_
  rw [View.readAt_eq_ld, View.ld_unit_zero (S := S2000x64) (by decide), tripfold_T']
  refine (tripfold_read_32 c i arg3 harg3 arg4 harg4 arg5 harg5 scM0_0 (Memref.isWhole_whole _) x0 x1 _ _).trans ?_
  refine congrArg (fun a => loopFold i x0 x1 a 32) ?_
  exact Memref.IsWhole.read_unread _ xs0

end Cert.KernelIdeal.Hand

end
-- ==== Proof.Payload.lean ====
/-
  The trip step and the 32-trip fold read at an index, over the extended reals.

  At row r and feature f one trip adds to the accumulator the sum over the 512 edges of the chunk of
  (1 if the edge's index word equals r + 2000 · (node tile), else 0) · (the edge's message at f); a product with 0 is 0
  and with 1 is the message, whatever extended real the message is. The word equality is the equality of the word read
  signed with the number 2000 · (node tile) + r, which is below 10000.
-/
import proofs.«418181_j61710090109692_2_alg».proof.Proof.KDefs
import Idealize.ShloMosaic.PureOps.Ideal.Laws
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.TcCoe Idealize.ShloMosaic.ValueIdx

/-- The zero fill is 0 everywhere. -/
theorem pay1_apply (j : S2000x64.Idx) : k0_pay1 (F := Ideal) j = (0 : EReal) := by
  unfold k0_pay1
  rw [shapeCast_self]
  exact Ideal.ofBits_zero_f32

/-- The output block is the accumulator under a leading unit axis. -/
theorem pay3_apply (v : Vec Ideal S2000x64 .f32) (r : Fin 2000) (f : Fin 64) :
    k0_pay3 (F := Ideal) v (ix3 (0 : Fin 1) r f) = v (ix2 r f) := by
  unfold k0_pay3
  exact shapeCast_ab_1ab_apply v _ 0 r f

/-! ## The 2000 × 512 by 512 × 64 product at an index -/

/-- Row axis of the left operand of the product: the output's row. -/
theorem payload_lhs_0 (j : S2000x64.Idx) (k : dot_S2000x512_S512x64_S2000x64_1_0_0_1_n_n.contr.Idx) :
    (dot_S2000x512_S512x64_S2000x64_1_0_0_1_n_n.lhsIdx j k 0).val = (j 0).val := by
  unfold DotDims.lhsIdx
  rw [dif_neg (show ¬(0 : Fin S2000x512.rank) ∈ dot_S2000x512_S512x64_S2000x64_1_0_0_1_n_n.lhsBatch by decide),
    dif_pos (show (0 : Fin S2000x512.rank) ∈ dot_S2000x512_S512x64_S2000x64_1_0_0_1_n_n.lhsNonContracting by decide)]
  rfl

/-- Column axis of the left operand: the contracted coordinate. -/
theorem payload_lhs_1 (j : S2000x64.Idx) (k : dot_S2000x512_S512x64_S2000x64_1_0_0_1_n_n.contr.Idx) :
    (dot_S2000x512_S512x64_S2000x64_1_0_0_1_n_n.lhsIdx j k 1).val = (k ⟨0, by decide⟩).val :=
  dot_S2000x512_S512x64_S2000x64_1_0_0_1_n_n.lhsIdx_val_of_single rfl j k

/-- Row axis of the right operand: the contracted coordinate. -/
theorem payload_rhs_0 (j : S2000x64.Idx) (k : dot_S2000x512_S512x64_S2000x64_1_0_0_1_n_n.contr.Idx) :
    (dot_S2000x512_S512x64_S2000x64_1_0_0_1_n_n.rhsIdx j k 0).val = (k ⟨0, by decide⟩).val :=
  dot_S2000x512_S512x64_S2000x64_1_0_0_1_n_n.rhsIdx_val_of_single rfl j k

/-- Column axis of the right operand: the output's column. -/
theorem payload_rhs_1 (j : S2000x64.Idx) (k : dot_S2000x512_S512x64_S2000x64_1_0_0_1_n_n.contr.Idx) :
    (dot_S2000x512_S512x64_S2000x64_1_0_0_1_n_n.rhsIdx j k 1).val = (j 1).val := by
  unfold DotDims.rhsIdx
  rw [dif_neg (show ¬(1 : Fin S512x64.rank) ∈ dot_S2000x512_S512x64_S2000x64_1_0_0_1_n_n.rhsBatch by decide),
    dif_pos (show (1 : Fin S512x64.rank) ∈ dot_S2000x512_S512x64_S2000x64_1_0_0_1_n_n.rhsNonContracting by decide)]
  rfl

/-- The product into the zero fill, read at (r, f): the sum over the 512 contracted positions of the products of entries. -/
theorem payload_matmul_apply (A : FVec Ideal S2000x512 .bf16) (B : FVec Ideal S512x64 .bf16) (r : Fin 2000) (f : Fin 64) :
    matmul dot_S2000x512_S512x64_S2000x64_1_0_0_1_n_n none A B (constant (F := Ideal) S2000x64 .f32 0x00000000#32) (ix2 r f)
      = ∑ j : Fin 512, A (ix2 r j) * B (ix2 j f) := by
  show FloatOps.matmul _ none A B _ (ix2 r f) = _
  rw [Ideal.matmul_constant_zero_apply,
    ← Equiv.sum_comp (contrEquiv1 dot_S2000x512_S512x64_S2000x64_1_0_0_1_n_n 512 rfl rfl).symm]
  refine Finset.sum_congr rfl fun c _ => ?_
  have hc := contrEquiv1_symm_val dot_S2000x512_S512x64_S2000x64_1_0_0_1_n_n 512 rfl rfl c
  have hl : dot_S2000x512_S512x64_S2000x64_1_0_0_1_n_n.lhsIdx (ix2 r f)
      ((contrEquiv1 dot_S2000x512_S512x64_S2000x64_1_0_0_1_n_n 512 rfl rfl).symm c) = ix2 r c := by
    funext ax; apply Fin.ext
    match ax with
    | ⟨0, _⟩ => exact payload_lhs_0 _ _
    | ⟨1, _⟩ => exact (payload_lhs_1 _ _).trans hc
  have hr : dot_S2000x512_S512x64_S2000x64_1_0_0_1_n_n.rhsIdx (ix2 r f)
      ((contrEquiv1 dot_S2000x512_S512x64_S2000x64_1_0_0_1_n_n 512 rfl rfl).symm c) = ix2 c f := by
    funext ax; apply Fin.ext
    match ax with
    | ⟨0, _⟩ => exact (payload_rhs_0 _ _).trans hc
    | ⟨1, _⟩ => exact payload_rhs_1 _ _
  rw [hl, hr]

/-! ## The one-hot entry and the chunk's words -/

/-- The float read of the widened comparison bit of two words: 1 where they are equal, 0 where they are not. -/
theorem payload_onehot (x y : BitVec 32) :
    FloatOps.sitofp (F := Ideal) .f32 ((IntOp.cmpi .eq x y).setWidth 32) = if x = y then (1 : EReal) else 0 := by
  show (((((IntOp.cmpi .eq x y).setWidth 32).toInt : ℝ)) : EReal) = _
  by_cases h : x = y
  · subst h
    rw [if_pos rfl]
    have : (IntOp.cmpi .eq x x) = 1#1 := by simp [IntOp.cmpi]
    rw [this]
    norm_num
  · rw [if_neg h]
    have : (IntOp.cmpi .eq x y) = 0#1 := by
      have hb : (x == y) = false := beq_eq_false_iff_ne.mpr h
      show BitVec.ofBool (x == y) = 0#1
      rw [hb]; rfl
    rw [this]
    norm_num

/-- A row number below 2000 plus 2000 times a tile number below 5, as 32-bit words, is the word w exactly when w read signed
    is that number: the number is below 10000, far below 2 ^ 31. -/
theorem payload_word_eq (w : BitVec 32) (t r : ℕ) (ht : t < 5) (hr : r < 2000) :
    (BitVec.ofNat 32 r + BitVec.ofNat 32 t * 2000#32 = w) ↔ w.toInt = ((t * 2000 + r : ℕ) : ℤ) := by
  have hw := w.isLt
  have hi := BitVec.toInt_eq_toNat_cond w
  constructor
  · intro h
    have hn : w.toNat = t * 2000 + r := by
      rw [← h]
      simp only [BitVec.toNat_add, BitVec.toNat_mul, BitVec.toNat_ofNat]
      omega
    rw [hi]
    split <;> omega
  · intro h
    apply BitVec.eq_of_toNat_eq
    simp only [BitVec.toNat_add, BitVec.toNat_mul, BitVec.toNat_ofNat]
    rw [hi] at h
    split at h <;> omega

/-- The chunk's 4 × 128 words laid out as one row of 512 and repeated down 2000 rows: entry (r, j) is word (j / 128, j % 128). -/
theorem payload_chunk_word (c : Vec Ideal S1x1x4x128 .i32) (r : Fin 2000) (j : Fin 512) :
    broadcastTo S2000x512 (shapeCast S1x512 (shapeCast S1x512 (shapeCast S512 (shapeCast S4x128 c shapeCasts_S1x1x4x128_S4x128)
      shapeCasts_S4x128_S512) shapeCasts_S512_S1x512) shapeCasts_S1x512_S1x512) broadcasts_S1x512_S2000x512 (ix2 r j)
    = c (ix4 (0 : Fin 1) (0 : Fin 1) (⟨j.val / 128, by omega⟩ : Fin 4) (⟨j.val % 128, Nat.mod_lt _ (by norm_num)⟩ : Fin 128)) := by
  rw [broadcastTo_1b_ab_apply, shapeCast_self, shapeCast_a_1a_apply]
  rw [shapeCast_apply _ shapeCasts_S4x128_S512 (ix1 j) (ix2 (⟨j.val / 128, by omega⟩ : Fin 4) (⟨j.val % 128, Nat.mod_lt _ (by norm_num)⟩ : Fin 128)) (by
    rw [Shape.rowMajor_val_two, Shape.rowMajor_val_one]
    show j.val / 128 * 128 + j.val % 128 = j.val
    omega)]
  exact shapeCast_apply _ shapeCasts_S1x1x4x128_S4x128 _ _ (by
    rw [Shape.rowMajor_val_four, Shape.rowMajor_val_two]
    show ((0 * 1 + 0) * 4 + j.val / 128) * 128 + j.val % 128 = j.val / 128 * 128 + j.val % 128
    omega)

/-! ## One trip, and the fold of the trips -/

/-- A word comparison at an index compares the words there. -/
theorem payload_cmpi_apply {s : Shape} {w : ℕ} (p : CmpIPredicate) (a b : IVec s w) (j : s.Idx) :
    cmpi p a b j = IntOp.cmpi p (a j) (b j) := rfl

/-- One trip at (r, f): the accumulator there plus, over the 512 edges of chunk k, the staged message at f of the edges whose
    staged index word read signed is 2000 · (node tile) + r. -/
theorem payload_trip_apply (i : grid0.Coords) (x0 : Vec Ideal S1x16384x64 .f32) (x1 : Vec Ideal S1x32x4x128 .i32) (k : Fin 32)
    (acc : Vec Ideal S2000x64 .f32) (r : Fin 2000) (f : Fin 64) :
    tripStep (F := Ideal) i x0 x1 k acc (ix2 r f)
      = acc (ix2 r f) + ∑ j : Fin 512,
          if (x1 (ix4 (0 : Fin 1) k (⟨j.val / 128, by omega⟩ : Fin 4) (⟨j.val % 128, Nat.mod_lt _ (by norm_num)⟩ : Fin 128))).toInt
                = (((i 1).val * 2000 + r.val : ℕ) : ℤ)
            then x0 (ix3 (0 : Fin 1) (⟨k.val * 512 + j.val, by omega⟩ : Fin 16384) f) else (0 : EReal) := by
  have hi : (i 1).val < 5 := (i 1).isLt
  unfold tripStep k0_pay2
  rw [shapeCast_self, addf_apply, payload_matmul_apply]
  refine congrArg (acc (ix2 r f) + ·) (Finset.sum_congr rfl fun j _ => ?_)
  have hA : (addi (iota .tc S2000x512 32 [0] iota_S2000x512_d0_w32)
      (broadcast S2000x512 (Scalar.muli (BitVec.ofNat 32 (i 1).val) 2000#32))) (ix2 r j)
        = BitVec.ofNat 32 r.val + BitVec.ofNat 32 (i 1).val * 2000#32 := by
    show IntOp.addi (iota .tc S2000x512 32 [0] iota_S2000x512_d0_w32 (ix2 r j)) _ = _
    rw [iota_single_apply]; rfl
  rw [truncf_apply, truncf_apply, shapeCast_1ab_ab_apply, sitofp_apply, extui_apply, payload_cmpi_apply, hA, payload_chunk_word,
    payload_onehot]
  have hw := payload_word_eq (x1 (ix4 (0 : Fin 1) k (⟨j.val / 128, by omega⟩ : Fin 4) (⟨j.val % 128, Nat.mod_lt _ (by norm_num)⟩ : Fin 128)))
    (i 1).val r.val hi r.isLt
  show (if BitVec.ofNat 32 r.val + BitVec.ofNat 32 (i 1).val * 2000#32
        = x1 (ix4 (0 : Fin 1) k (⟨j.val / 128, by omega⟩ : Fin 4) (⟨j.val % 128, Nat.mod_lt _ (by norm_num)⟩ : Fin 128))
      then (1 : EReal) else 0) * x0 (ix3 (0 : Fin 1) (⟨k.val * 512 + j.val, by omega⟩ : Fin 16384) f) = _
  by_cases h : (x1 (ix4 (0 : Fin 1) k (⟨j.val / 128, by omega⟩ : Fin 4) (⟨j.val % 128, Nat.mod_lt _ (by norm_num)⟩ : Fin 128))).toInt
      = (((i 1).val * 2000 + r.val : ℕ) : ℤ)
  · rw [if_pos h, if_pos (hw.mpr h), one_mul]
  · rw [if_neg h, if_neg (fun h' => h (hw.mp h')), zero_mul]

/-- What trip k adds at (r, f): over the 512 edges of chunk k, the staged message at f of the edges whose staged index word
    read signed is 2000 · (node tile) + r. -/
def payload_term (i : grid0.Coords) (x0 : Vec Ideal S1x16384x64 .f32) (x1 : Vec Ideal S1x32x4x128 .i32) (r : Fin 2000) (f : Fin 64)
    (k : Fin 32) : EReal :=
  ∑ j : Fin 512,
    if (x1 (ix4 (0 : Fin 1) k (⟨j.val / 128, by omega⟩ : Fin 4) (⟨j.val % 128, Nat.mod_lt _ (by norm_num)⟩ : Fin 128))).toInt
          = (((i 1).val * 2000 + r.val : ℕ) : ℤ)
      then x0 (ix3 (0 : Fin 1) (⟨k.val * 512 + j.val, by omega⟩ : Fin 16384) f) else (0 : EReal)

/-- The accumulator after the first n trips, at (r, f): the entry contents plus what trips 0 … n − 1 add, in that order. -/
theorem payload_fold_apply (i : grid0.Coords) (x0 : Vec Ideal S1x16384x64 .f32) (x1 : Vec Ideal S1x32x4x128 .i32)
    (a : Vec Ideal S2000x64 .f32) (r : Fin 2000) (f : Fin 64) (n : ℕ) (hn : n ≤ 32) :
    loopFold (F := Ideal) i x0 x1 a n (ix2 r f)
      = a (ix2 r f) + ∑ k ∈ Finset.range n, if h : k < 32 then payload_term i x0 x1 r f ⟨k, h⟩ else 0 := by
  induction n with
  | zero => rw [Finset.range_zero, Finset.sum_empty, add_zero]; rfl
  | succ m ih =>
    have hm : m < 32 := by omega
    rw [loopFold, dif_pos hm, payload_trip_apply, ih (by omega), Finset.sum_range_succ, dif_pos hm, add_assoc]
    rfl

/-- The accumulator after the 32 trips, at (r, f): what it held at loop entry plus, over the 32 chunks and the 512 edges
    of a chunk, the staged message at f of the edges whose staged index word read signed is 2000 · (node tile) + r. -/
theorem loopFold_apply (i : grid0.Coords) (x0 : Vec Ideal S1x16384x64 .f32) (x1 : Vec Ideal S1x32x4x128 .i32)
    (a : Vec Ideal S2000x64 .f32) (r : Fin 2000) (f : Fin 64) :
    loopFold (F := Ideal) i x0 x1 a 32 (ix2 r f)
      = a (ix2 r f) + ∑ k : Fin 32, ∑ j : Fin 512,
          if (x1 (ix4 (0 : Fin 1) k (⟨j.val / 128, by omega⟩ : Fin 4) (⟨j.val % 128, Nat.mod_lt _ (by norm_num)⟩ : Fin 128))).toInt
                = (((i 1).val * 2000 + r.val : ℕ) : ℤ)
            then x0 (ix3 (0 : Fin 1) (⟨k.val * 512 + j.val, by omega⟩ : Fin 16384) f) else (0 : EReal) := by
  rw [payload_fold_apply i x0 x1 a r f 32 le_rfl, Finset.sum_range]
  refine congrArg (a (ix2 r f) + ·) (Finset.sum_congr rfl fun k _ => ?_)
  rw [dif_pos k.isLt]
  rfl

end Cert.KernelIdeal.Hand

end
-- ==== Proof.Spec.lean ====
/-
  The function both programs compute, and the two padded arrays the kernel works on.

  For batch b, node n and feature f the result is the sum, over the edges e of batch b whose index word read as a
  signed integer is n, of msg (b, e, f). An edge whose index is not a node number in [0, 10000) contributes to
  no node. The kernel pads the edge axis from 320000 to 327680 = 20 · 32 · 512: padded messages are 0, padded
  index words are 10000, which is no node number.
-/
import Idealize.ShloMosaic.PureOps.Ideal
import Idealize.ShloMosaic.Lib.ValueIdx
import Mathlib.Algebra.BigOperators.Group.Finset.Basic

noncomputable section

namespace Cert.Hand

open Idealize.ShloMosaic Idealize.ShloMosaic.ValueIdx

/-- Node n of batch b, feature f: the sum of the messages of the edges whose index word, read signed, is n. -/
def scatterSum (msg : (⟨3, ![4, 320000, 64]⟩ : Shape).Idx → EReal) (idx : (⟨2, ![4, 320000]⟩ : Shape).Idx → BitVec 32) :
    (⟨3, ![4, 10000, 64]⟩ : Shape).Idx → EReal :=
  fun i => ∑ e : Fin 320000,
    if (idx (ix2 (⟨(i 0).val, (i 0).isLt⟩ : Fin 4) e)).toInt = ((i 1).val : ℤ)
      then msg (ix3 (⟨(i 0).val, (i 0).isLt⟩ : Fin 4) e (⟨(i 2).val, (i 2).isLt⟩ : Fin 64)) else 0

/-- The messages with the edge axis padded by zeros to 327680. -/
def padMsg (msg : (⟨3, ![4, 320000, 64]⟩ : Shape).Idx → EReal) : (⟨3, ![4, 327680, 64]⟩ : Shape).Idx → EReal :=
  fun y => if h : (y 1).val < 320000
    then msg (ix3 (⟨(y 0).val, (y 0).isLt⟩ : Fin 4) (⟨(y 1).val, h⟩ : Fin 320000) (⟨(y 2).val, (y 2).isLt⟩ : Fin 64)) else 0

/-- The index words with the edge axis padded by the word 10000 to 327680, laid out as 640 chunks of 4 × 128. -/
def padIdx (idx : (⟨2, ![4, 320000]⟩ : Shape).Idx → BitVec 32) : (⟨4, ![4, 640, 4, 128]⟩ : Shape).Idx → BitVec 32 :=
  fun y => if h : (y 1).val * 512 + (y 2).val * 128 + (y 3).val < 320000
    then idx (ix2 (⟨(y 0).val, (y 0).isLt⟩ : Fin 4) (⟨(y 1).val * 512 + (y 2).val * 128 + (y 3).val, h⟩ : Fin 320000)) else 10000#32

/-- The kernel's sum for batch b, node n, feature f over the padded arrays: over the 20 edge tiles, the 32 chunks of
    a tile and the 512 edges of a chunk, the padded message where the padded index word read signed is n. -/
def tiledSum (pm : (⟨3, ![4, 327680, 64]⟩ : Shape).Idx → EReal) (pi : (⟨4, ![4, 640, 4, 128]⟩ : Shape).Idx → BitVec 32)
    (b : Fin 4) (n : ℕ) (f : Fin 64) (tiles : ℕ) : EReal :=
  ∑ eo ∈ Finset.range tiles, ∑ k : Fin 32, ∑ j : Fin 512,
    if h : eo < 20 then
      (if (pi (ix4 b (⟨eo * 32 + k.val, by omega⟩ : Fin 640) (⟨j.val / 128, by omega⟩ : Fin 4) (⟨j.val % 128, Nat.mod_lt _ (by norm_num)⟩ : Fin 128))).toInt = (n : ℤ)
        then pm (ix3 b (⟨eo * 16384 + k.val * 512 + j.val, by omega⟩ : Fin 327680) f) else 0)
    else 0

end Cert.Hand

end
-- ==== Proof.HostPrefix.lean ====
/-
  What the region finds in the two arrays it stages, and its blocks read at an index.

  Before the region the program pads the messages with zeros and the index words with the word 10000 along the edge
  axis, from 320000 to 327680, and lays the padded words out as 640 chunks of 4 × 128. At grid point t = 100 b + 20 n + eo
  the message window's block is rows 16384 eo … 16384 eo + 16383 of batch b, and the index window's block is chunks
  32 eo … 32 eo + 31 of batch b.
-/
import proofs.«418181_j61710090109692_2_alg».proof.Proof.Gen.KernelIdeal.Frame
import proofs.«418181_j61710090109692_2_alg».proof.Proof.Spec
import Idealize.ShloMosaic.Lib.Pipeline.Value
import Idealize.ShloMosaic.Lib.StableHlo.Run
import Idealize.ShloMosaic.Lib.KernelVsHost

noncomputable section

namespace Cert.KernelIdeal.Hand

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The message window's block at point t, at its literal type. -/
abbrev msgBlk (c : Dev nD) (t : Fin cfg0.N) : Vec Ideal S1x16384x64 .f32 := iblk m c 0 t
/-- The index window's block at point t, at its literal type. -/
abbrev idxBlk (c : Dev nD) (t : Fin cfg0.N) : Vec Ideal S1x32x4x128 .i32 := iblk m c 1 t

/-! ## The two staged arrays as the program's operations of the argument arrays -/

/-- The array the first window stages is the pad of the messages by the converted scalar zero, 7680 rows past the
    end of the edge axis. -/
private theorem hostprefix_v0_term (c : Dev nD) :
    (V m c main_v0 : S4x327680x64.Idx → EReal) =
      pad S4x327680x64 ![0, 0, 0] ![0, 7680, 0] ![0, 0, 0] (m ((c : Thread nD τ).loc main_arg0) : S4x320000x64.Idx → EReal)
        (sitofp (F := Ideal) FTy.f32 (constantI S_ 32 0#32)) pads_S4x320000x64_S4x327680x64_000_076800_000 h_S_ := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-- The array the second window stages is the pad of the index words by the word 10000, 7680 words past the end of
    the edge axis, laid out as 640 chunks of 4 × 128. -/
private theorem hostprefix_v2_term (c : Dev nD) :
    (V m c main_v2 : S4x640x4x128.Idx → BitVec 32) =
      shapeCast S4x640x4x128 (pad S4x327680 ![0, 0] ![0, 7680] ![0, 0] (m ((c : Thread nD τ).loc main_arg1) : S4x320000.Idx → BitVec 32)
        (constantI S_ 32 10000#32) pads_S4x320000_S4x327680_000_076800 h_S_) shapeCasts_S4x327680_S4x640x4x128 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results
  rfl

/-! ## The operations read at an index -/

/-- The padded messages at an index: the messages inside the first 320000 rows, zero past them (the integer zero
    converted is the float zero). -/
private theorem hostprefix_pad_msg (x : S4x320000x64.Idx → EReal) (y : S4x327680x64.Idx) :
    pad S4x327680x64 ![0, 0, 0] ![0, 7680, 0] ![0, 0, 0] x
        (sitofp (F := Ideal) FTy.f32 (constantI S_ 32 0#32)) pads_S4x320000x64_S4x327680x64_000_076800_000 h_S_ y
      = Cert.Hand.padMsg x y := by
  unfold Cert.Hand.padMsg
  by_cases h : (y 1).val < 320000
  · rw [dif_pos h]
    refine pad_apply_of_inside _ _ _ x _ _ _ y _ (fun a => ?_)
    match a with
    | ⟨0, _⟩ => show (y 0).val = 0 + (y 0).val * (0 + 1); omega
    | ⟨1, _⟩ => show (y 1).val = 0 + (y 1).val * (0 + 1); omega
    | ⟨2, _⟩ => show (y 2).val = 0 + (y 2).val * (0 + 1); omega
  · rw [dif_neg h]
    rw [pad_apply_of_not_inside _ _ _ x _ _ _ y (1 : Fin 3) (by
      show ¬(0 ≤ (y 1).val ∧ ((y 1).val - 0) % (0 + 1) = 0 ∧ ((y 1).val - 0) / (0 + 1) < 320000)
      omega)]
    exact sitofp_zero (φ := FTy.f32)

/-- The padded index words in chunks at an index: chunk k, row l, lane z is word 512 k + 128 l + z of the batch's
    padded words (both are row-major position 327680 b + 512 k + 128 l + z), which is the batch's own word inside the
    first 320000 and the word 10000 past them. -/
private theorem hostprefix_pad_idx (x : S4x320000.Idx → BitVec 32) (y : S4x640x4x128.Idx) :
    shapeCast S4x640x4x128 (pad S4x327680 ![0, 0] ![0, 7680] ![0, 0] x (constantI S_ 32 10000#32)
        pads_S4x320000_S4x327680_000_076800 h_S_) shapeCasts_S4x327680_S4x640x4x128 y
      = Cert.Hand.padIdx x y := by
  have h0 : (y 0).val < 4 := (y 0).isLt
  have h1 : (y 1).val < 640 := (y 1).isLt
  have h2 : (y 2).val < 4 := (y 2).isLt
  have h3 : (y 3).val < 128 := (y 3).isLt
  rw [shapeCast_apply _ shapeCasts_S4x327680_S4x640x4x128 y
    (ix2 (⟨(y 0).val, h0⟩ : Fin 4) (⟨(y 1).val * 512 + (y 2).val * 128 + (y 3).val, by omega⟩ : Fin 327680)) (by
      rw [Shape.rowMajor_val_two, Shape.rowMajor_val_four]
      show (y 0).val * 327680 + ((y 1).val * 512 + (y 2).val * 128 + (y 3).val)
        = (((y 0).val * 640 + (y 1).val) * 4 + (y 2).val) * 128 + (y 3).val
      omega)]
  unfold Cert.Hand.padIdx
  by_cases h : (y 1).val * 512 + (y 2).val * 128 + (y 3).val < 320000
  · rw [dif_pos h]
    refine pad_apply_of_inside _ _ _ x _ _ _ _ _ (fun a => ?_)
    match a with
    | ⟨0, _⟩ => show (y 0).val = 0 + (y 0).val * (0 + 1); omega
    | ⟨1, _⟩ =>
      show (y 1).val * 512 + (y 2).val * 128 + (y 3).val = 0 + ((y 1).val * 512 + (y 2).val * 128 + (y 3).val) * (0 + 1)
      omega
  · rw [dif_neg h]
    rw [pad_apply_of_not_inside _ _ _ x _ _ _ _ (1 : Fin 2) (by
      show ¬(0 ≤ ((y 1).val * 512 + (y 2).val * 128 + (y 3).val)
        ∧ (((y 1).val * 512 + (y 2).val * 128 + (y 3).val) - 0) % (0 + 1) = 0
        ∧ (((y 1).val * 512 + (y 2).val * 128 + (y 3).val) - 0) / (0 + 1) < 320000)
      omega)]
    rfl

/-! ## What the region finds -/

/-- The region finds the zero-padded messages in the array its first window stages. -/
theorem V_main_v0_eq (c : Dev nD) :
    (V m c main_v0 : S4x327680x64.Idx → EReal) = Cert.Hand.padMsg (m ((c : Thread nD τ).loc main_arg0)) := by
  rw [hostprefix_v0_term]
  exact funext fun y => hostprefix_pad_msg _ y

/-- The region finds the padded, chunked index words in the array its second window stages. -/
theorem V_main_v2_eq (c : Dev nD) :
    (V m c main_v2 : S4x640x4x128.Idx → BitVec 32) = Cert.Hand.padIdx (m ((c : Thread nD τ).loc main_arg1)) := by
  rw [hostprefix_v2_term]
  exact funext fun y => hostprefix_pad_idx _ y

/-! ## The blocks at a grid point -/

/-- The message window's block indices over the grid: batch t / 100, edge tile t mod 20, all the features. -/
private theorem hostprefix_msg_index : ∀ t : Fin cfg0.N, win0_0.index t (0 : Fin 3) = t.val / 100
    ∧ win0_0.index t (1 : Fin 3) = t.val % 20 ∧ win0_0.index t (2 : Fin 3) = 0 :=
  (by decide +kernel : ∀ t : Fin grid0.N, _)

/-- The index window's block indices over the grid: batch t / 100, edge tile t mod 20, whole chunks. -/
private theorem hostprefix_idx_index : ∀ t : Fin cfg0.N, win0_1.index t (0 : Fin 4) = t.val / 100
    ∧ win0_1.index t (1 : Fin 4) = t.val % 20 ∧ win0_1.index t (2 : Fin 4) = 0 ∧ win0_1.index t (3 : Fin 4) = 0 :=
  (by decide +kernel : ∀ t : Fin grid0.N, _)

/-- Row q, feature f of the message block at point t is row 16384 · (t mod 20) + q of batch t / 100 of the padded messages. -/
theorem msgBlk_apply (c : Dev nD) (t : Fin cfg0.N) (q : Fin 16384) (f : Fin 64) :
    msgBlk m c t (ix3 (0 : Fin 1) q f)
      = Cert.Hand.padMsg (m ((c : Thread nD τ).loc main_arg0))
          (ix3 (⟨t.val / 100, by have := lt_of_lt_of_eq t.isLt (show cfg0.N = 400 from N_0); omega⟩ : Fin 4)
               (⟨t.val % 20 * 16384 + q.val, by have := q.isLt; have := Nat.mod_lt t.val (show 0 < 20 by norm_num); omega⟩ : Fin 327680) f) := by
  obtain ⟨e0, e1, e2⟩ := hostprefix_msg_index t
  show V m c main_v0 (((cfg0.win 0).blk t).view.emb (ix3 (0 : Fin 1) q f)) = _
  rw [V_main_v0_eq]
  refine congrArg _ (funext fun a => Fin.ext ?_)
  match a with
  | ⟨0, _⟩ => show win0_0.index t (0 : Fin 3) * 1 + 1 * (0 : Fin 1).val = t.val / 100; rw [e0]; simp
  | ⟨1, _⟩ => show win0_0.index t (1 : Fin 3) * 16384 + 1 * q.val = t.val % 20 * 16384 + q.val; omega
  | ⟨2, _⟩ => show win0_0.index t (2 : Fin 3) * 64 + 1 * f.val = f.val; omega

/-- Word (k, l, z) of the index block at point t is word (l, z) of chunk 32 · (t mod 20) + k of batch t / 100 of the padded words. -/
theorem idxBlk_apply (c : Dev nD) (t : Fin cfg0.N) (k : Fin 32) (l : Fin 4) (z : Fin 128) :
    idxBlk m c t (ix4 (0 : Fin 1) k l z)
      = Cert.Hand.padIdx (m ((c : Thread nD τ).loc main_arg1))
          (ix4 (⟨t.val / 100, by have := lt_of_lt_of_eq t.isLt (show cfg0.N = 400 from N_0); omega⟩ : Fin 4)
               (⟨t.val % 20 * 32 + k.val, by have := k.isLt; have := Nat.mod_lt t.val (show 0 < 20 by norm_num); omega⟩ : Fin 640) l z) := by
  obtain ⟨e0, e1, e2, e3⟩ := hostprefix_idx_index t
  show V m c main_v2 (((cfg0.win 1).blk t).view.emb (ix4 (0 : Fin 1) k l z)) = _
  rw [V_main_v2_eq]
  refine congrArg _ (funext fun a => Fin.ext ?_)
  match a with
  | ⟨0, _⟩ => show win0_1.index t (0 : Fin 4) * 1 + 1 * (0 : Fin 1).val = t.val / 100; rw [e0]; simp
  | ⟨1, _⟩ => show win0_1.index t (1 : Fin 4) * 32 + 1 * k.val = t.val % 20 * 32 + k.val; omega
  | ⟨2, _⟩ => show win0_1.index t (2 : Fin 4) * 4 + 1 * l.val = l.val; omega
  | ⟨3, _⟩ => show win0_1.index t (3 : Fin 4) * 128 + 1 * z.val = z.val; omega

end Cert.KernelIdeal.Hand

end
-- ==== Proof.SumLemmas.lean ====
/-
  The kernel's tiled sum over the padded arrays is the scatter-sum.

  The triple sum over 20 edge tiles, 32 chunks and 512 edges is one sum over the 327680 padded edges
  (e = 16384 eo + 512 k + j, and chunk 32 eo + k, word (j / 128, j mod 128) of the padded index words is padded edge e).
  A padded edge beyond 320000 carries the index word 10000, which is no node number below 10000, so it adds 0; the
  others are the edges of the scatter-sum.

  The steps: (1) at tile eo, chunk k, edge j the kernel's summand is g (16384 eo + 512 k + j), where g e is the
  scatter-sum's summand at edge e for e < 320000 and 0 from 320000 on; (2) a double sum over a < m, b < n of a function
  of a n + b is the single sum over the numbers below m n (induction on m), used twice: 32 · 512 = 16384 and
  20 · 16384 = 327680; (3) the sum of g over the numbers below 327680 = 320000 + 7680 splits at 320000, and its tail is
  a sum of zeros.
-/
import proofs.«418181_j61710090109692_2_alg».proof.Proof.Spec
import Mathlib.Algebra.BigOperators.Fin
import Mathlib.Algebra.BigOperators.Intervals

noncomputable section

namespace Cert.Hand

open Idealize.ShloMosaic Idealize.ShloMosaic.ValueIdx

/-- A double sum over a < m and b < n of a function of a * n + b is the single sum over the numbers below m * n. -/
private theorem sumlemmas_range_mul {M : Type*} [AddCommMonoid M] (h : ℕ → M) (m n : ℕ) :
    ∑ a ∈ Finset.range m, ∑ b ∈ Finset.range n, h (a * n + b) = ∑ e ∈ Finset.range (m * n), h e := by
  induction m with
  | zero => rw [Nat.zero_mul, Finset.range_zero, Finset.sum_empty, Finset.sum_empty]
  | succ m ih => rw [Finset.sum_range_succ, ih, Nat.succ_mul, Finset.sum_range_add]

/-- The padded index word at chunk c, row r, lane l. -/
private theorem sumlemmas_padIdx_ix4 (idx : (⟨2, ![4, 320000]⟩ : Shape).Idx → BitVec 32) (b : Fin 4) (c : Fin 640) (r : Fin 4) (l : Fin 128) :
    padIdx idx (ix4 b c r l) = if h : c.val * 512 + r.val * 128 + l.val < 320000
      then idx (ix2 b (⟨c.val * 512 + r.val * 128 + l.val, h⟩ : Fin 320000)) else 10000#32 := rfl

/-- The padded message at padded edge e. -/
private theorem sumlemmas_padMsg_ix3 (msg : (⟨3, ![4, 320000, 64]⟩ : Shape).Idx → EReal) (b : Fin 4) (e : Fin 327680) (f : Fin 64) :
    padMsg msg (ix3 b e f) = if h : e.val < 320000 then msg (ix3 b (⟨e.val, h⟩ : Fin 320000) f) else 0 := rfl

/-- The word 10000 read signed is the integer 10000. -/
private theorem sumlemmas_toInt_pad : (10000#32).toInt = 10000 := by decide

/-- The scatter-sum's summand as a function of the padded edge number: 0 from 320000 on. -/
private def sumlemmas_g (msg : (⟨3, ![4, 320000, 64]⟩ : Shape).Idx → EReal) (idx : (⟨2, ![4, 320000]⟩ : Shape).Idx → BitVec 32)
    (b : Fin 4) (n : ℕ) (f : Fin 64) (e : ℕ) : EReal :=
  if h : e < 320000 then
    (if (idx (ix2 b (⟨e, h⟩ : Fin 320000))).toInt = (n : ℤ) then msg (ix3 b (⟨e, h⟩ : Fin 320000) f) else 0)
  else 0

/-- The kernel's summand at tile eo, chunk k, edge j is the scatter-sum's summand at padded edge 16384 eo + 512 k + j. -/
private theorem sumlemmas_summand (msg : (⟨3, ![4, 320000, 64]⟩ : Shape).Idx → EReal) (idx : (⟨2, ![4, 320000]⟩ : Shape).Idx → BitVec 32)
    (b : Fin 4) (n : Fin 10000) (f : Fin 64) (eo : ℕ) (heo : eo < 20) (k : Fin 32) (j : Fin 512) :
    (if (padIdx idx (ix4 b (⟨eo * 32 + k.val, by omega⟩ : Fin 640) (⟨j.val / 128, by omega⟩ : Fin 4) (⟨j.val % 128, Nat.mod_lt _ (by norm_num)⟩ : Fin 128))).toInt = (n.val : ℤ)
        then padMsg msg (ix3 b (⟨eo * 16384 + k.val * 512 + j.val, by omega⟩ : Fin 327680) f) else 0)
      = sumlemmas_g msg idx b n.val f (eo * 16384 + k.val * 512 + j.val) := by
  have key : (eo * 32 + k.val) * 512 + (j.val / 128) * 128 + j.val % 128 = eo * 16384 + k.val * 512 + j.val := by omega
  rw [sumlemmas_padIdx_ix4, sumlemmas_padMsg_ix3]
  unfold sumlemmas_g
  by_cases h : eo * 16384 + k.val * 512 + j.val < 320000
  · have h' : (eo * 32 + k.val) * 512 + (j.val / 128) * 128 + j.val % 128 < 320000 := by omega
    have hfin : (⟨(eo * 32 + k.val) * 512 + (j.val / 128) * 128 + j.val % 128, h'⟩ : Fin 320000)
        = ⟨eo * 16384 + k.val * 512 + j.val, h⟩ := Fin.ext key
    rw [dif_pos h', dif_pos h, dif_pos h, hfin]
  · have h' : ¬ (eo * 32 + k.val) * 512 + (j.val / 128) * 128 + j.val % 128 < 320000 := by omega
    have hn : ¬ ((10000 : ℤ) = (n.val : ℤ)) := by have := n.isLt; omega
    rw [dif_neg h', sumlemmas_toInt_pad, if_neg hn, dif_neg h]

/-- Over all 20 edge tiles the tiled sum of the padded arrays is the scatter-sum, at every node number below 10000. -/
theorem tiledSum_eq_scatterSum (msg : (⟨3, ![4, 320000, 64]⟩ : Shape).Idx → EReal) (idx : (⟨2, ![4, 320000]⟩ : Shape).Idx → BitVec 32)
    (b : Fin 4) (n : Fin 10000) (f : Fin 64) :
    tiledSum (padMsg msg) (padIdx idx) b n.val f 20 = scatterSum msg idx (ix3 b n f) := by
  have step1 : tiledSum (padMsg msg) (padIdx idx) b n.val f 20
      = ∑ eo ∈ Finset.range 20, ∑ k ∈ Finset.range 32, ∑ j ∈ Finset.range 512,
          sumlemmas_g msg idx b n.val f (eo * 16384 + (k * 512 + j)) := by
    unfold tiledSum
    refine Finset.sum_congr rfl fun eo heo => ?_
    have heo' : eo < 20 := Finset.mem_range.mp heo
    rw [Finset.sum_range (fun k => ∑ j ∈ Finset.range 512, sumlemmas_g msg idx b n.val f (eo * 16384 + (k * 512 + j)))]
    refine Finset.sum_congr rfl fun k _ => ?_
    rw [Finset.sum_range (fun j => sumlemmas_g msg idx b n.val f (eo * 16384 + (k.val * 512 + j)))]
    refine Finset.sum_congr rfl fun j _ => ?_
    rw [dif_pos heo', sumlemmas_summand msg idx b n f eo heo' k j, Nat.add_assoc]
  have step2 : (∑ eo ∈ Finset.range 20, ∑ k ∈ Finset.range 32, ∑ j ∈ Finset.range 512,
          sumlemmas_g msg idx b n.val f (eo * 16384 + (k * 512 + j)))
      = ∑ e ∈ Finset.range 327680, sumlemmas_g msg idx b n.val f e := by
    have inner : ∀ eo : ℕ, (∑ k ∈ Finset.range 32, ∑ j ∈ Finset.range 512,
          sumlemmas_g msg idx b n.val f (eo * 16384 + (k * 512 + j)))
        = ∑ e ∈ Finset.range 16384, sumlemmas_g msg idx b n.val f (eo * 16384 + e) :=
      fun eo => sumlemmas_range_mul (fun x => sumlemmas_g msg idx b n.val f (eo * 16384 + x)) 32 512
    rw [Finset.sum_congr rfl fun eo _ => inner eo]
    exact sumlemmas_range_mul (sumlemmas_g msg idx b n.val f) 20 16384
  have step3 : (∑ e ∈ Finset.range 327680, sumlemmas_g msg idx b n.val f e)
      = ∑ e : Fin 320000, sumlemmas_g msg idx b n.val f e.val := by
    rw [show (327680 : ℕ) = 320000 + 7680 from rfl, Finset.sum_range_add, Finset.sum_range]
    have tail : (∑ x ∈ Finset.range 7680, sumlemmas_g msg idx b n.val f (320000 + x)) = 0 := by
      refine Finset.sum_eq_zero fun x _ => ?_
      unfold sumlemmas_g
      rw [dif_neg (by omega)]
    rw [tail, add_zero]
  rw [step1, step2, step3]
  unfold scatterSum
  refine Finset.sum_congr rfl fun e _ => ?_
  unfold sumlemmas_g
  rw [dif_pos e.isLt]

/-- One more edge tile: the tiled sum over eo + 1 tiles is the sum over eo tiles plus tile eo's double sum. -/
theorem tiledSum_succ (pm : (⟨3, ![4, 327680, 64]⟩ : Shape).Idx → EReal) (pi : (⟨4, ![4, 640, 4, 128]⟩ : Shape).Idx → BitVec 32)
    (b : Fin 4) (n : ℕ) (f : Fin 64) (eo : ℕ) (h : eo < 20) :
    tiledSum pm pi b n f (eo + 1) = tiledSum pm pi b n f eo + ∑ k : Fin 32, ∑ j : Fin 512,
      (if (pi (ix4 b (⟨eo * 32 + k.val, by omega⟩ : Fin 640) (⟨j.val / 128, by omega⟩ : Fin 4) (⟨j.val % 128, Nat.mod_lt _ (by norm_num)⟩ : Fin 128))).toInt = (n : ℤ)
        then pm (ix3 b (⟨eo * 16384 + k.val * 512 + j.val, by omega⟩ : Fin 327680) f) else 0) := by
  unfold tiledSum
  rw [Finset.sum_range_succ]
  congr 1
  refine Finset.sum_congr rfl fun k _ => Finset.sum_congr rfl fun j _ => ?_
  rw [dif_pos h]

/-- No tile: the empty sum. -/
theorem tiledSum_zero (pm : (⟨3, ![4, 327680, 64]⟩ : Shape).Idx → EReal) (pi : (⟨4, ![4, 640, 4, 128]⟩ : Shape).Idx → BitVec 32)
    (b : Fin 4) (n : ℕ) (f : Fin 64) : tiledSum pm pi b n f 0 = 0 := by
  unfold tiledSum
  rw [Finset.range_zero, Finset.sum_empty]

end Cert.Hand

end
-- ==== Proof.Accum.lean ====
/-
  The accumulator and the output block after each grid point.

  Grid point t = 100 b + 20 n + eo works on batch b, node tile n and edge tile eo. After it the accumulator holds, at
  (r, f), the tiled sum over the edge tiles 0 … eo for node 2000 n + r; the output block holds the same.
-/
import proofs.«418181_j61710090109692_2_alg».proof.Proof.Gen.KernelIdeal.Value
import proofs.«418181_j61710090109692_2_alg».proof.Proof.TripFold
import proofs.«418181_j61710090109692_2_alg».proof.Proof.Payload
import proofs.«418181_j61710090109692_2_alg».proof.Proof.HostPrefix
import proofs.«418181_j61710090109692_2_alg».proof.Proof.SumLemmas

noncomputable section

namespace Cert.KernelIdeal.Hand

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The node-tile coordinate of grid point t is (t / 20) mod 5. -/
theorem coords_one : ∀ t : Fin cfg0.N, (grid0.coords t 1).val = t.val / 20 % 5 :=
  (by decide +kernel : ∀ t : Fin grid0.N, (grid0.coords t 1).val = t.val / 20 % 5)

/-- The padded messages of device c. -/
abbrev PM (c : Dev nD) := Cert.Hand.padMsg (m ((c : Thread nD τ).loc main_arg0))
/-- The padded, chunked index words of device c. -/
abbrev PI (c : Dev nD) := Cert.Hand.padIdx (m ((c : Thread nD τ).loc main_arg1))

/-- The batch of grid point t. -/
abbrev batchOf (t : Fin cfg0.N) : Fin 4 :=
  ⟨t.val / 100, by have := lt_of_lt_of_eq t.isLt (show cfg0.N = 400 from N_0); omega⟩

/-- What the 32 trips of point t add at (r, f): edge tile t mod 20 of the tiled sum for node 2000 · (node tile) + r. -/
theorem tile_term (c : Dev nD) (t : Fin cfg0.N) (r : Fin 2000) (f : Fin 64) (h20 : t.val % 20 < 20) :
    (∑ k : Fin 32, ∑ j : Fin 512,
      if (idxBlk m c t (ix4 (0 : Fin 1) k (⟨j.val / 128, by omega⟩ : Fin 4) (⟨j.val % 128, Nat.mod_lt _ (by norm_num)⟩ : Fin 128))).toInt
            = ((((grid0.coords t) 1).val * 2000 + r.val : ℕ) : ℤ)
        then msgBlk m c t (ix3 (0 : Fin 1) (⟨k.val * 512 + j.val, by omega⟩ : Fin 16384) f) else (0 : EReal))
    = ∑ k : Fin 32, ∑ j : Fin 512,
      (if (PI m c (ix4 (batchOf t) (⟨t.val % 20 * 32 + k.val, by omega⟩ : Fin 640) (⟨j.val / 128, by omega⟩ : Fin 4) (⟨j.val % 128, Nat.mod_lt _ (by norm_num)⟩ : Fin 128))).toInt
            = ((t.val / 20 % 5 * 2000 + r.val : ℕ) : ℤ)
        then PM m c (ix3 (batchOf t) (⟨t.val % 20 * 16384 + k.val * 512 + j.val, by omega⟩ : Fin 327680) f) else 0) := by
  refine Finset.sum_congr rfl fun k _ => Finset.sum_congr rfl fun j _ => ?_
  rw [idxBlk_apply, msgBlk_apply, coords_one t]
  have e : (⟨t.val % 20 * 16384 + (k.val * 512 + j.val), by omega⟩ : Fin 327680)
      = ⟨t.val % 20 * 16384 + k.val * 512 + j.val, by omega⟩ := Fin.ext (by simp only []; omega)
  simp only [e]

/-- The accumulator after point n, at (r, f): by induction on the point. At the first edge tile the body starts from
    the zero fill; at a later one from what the point before left, which is the same batch and node tile one edge tile
    earlier. -/
theorem scratch_after_nat (c : Dev nD) : ∀ (n : ℕ) (hn : n < cfg0.N) (r : Fin 2000) (f : Fin 64),
    (outsAt0 m c n hn).2 (ix2 r f)
      = Cert.Hand.tiledSum (PM m c) (PI m c) (batchOf ⟨n, hn⟩) (n / 20 % 5 * 2000 + r.val) f (n % 20 + 1) := by
  intro n
  induction n using Nat.strong_induction_on with
  | _ n ih =>
    intro hn r f
    have hN : n < 400 := lt_of_lt_of_eq hn (show cfg0.N = 400 from N_0)
    rw [Cert.Hand.tiledSum_succ _ _ _ _ _ (n % 20) (Nat.mod_lt _ (by norm_num))]
    by_cases h0 : n % 20 = 0
    · rw [outsAt0_A m c ⟨n, hn⟩ h0]
      dsimp only
      rw [sout0_A_0_eq, loopFold_apply, pay1_apply, tile_term m c ⟨n, hn⟩ r f (Nat.mod_lt _ (by norm_num))]
      congr 1
      rw [h0]
      exact (Cert.Hand.tiledSum_zero _ _ _ _ _).symm
    · rw [outsAt0_B m c ⟨n, hn⟩ h0]
      dsimp only
      rw [sout0_B_0_eq, loopFold_apply, tile_term m c ⟨n, hn⟩ r f (Nat.mod_lt _ (by norm_num))]
      congr 1
      have hprev := ih (n - 1) (by omega) (lt_of_le_of_lt (Nat.sub_le _ _) hn) r f
      rw [hprev]
      have e1 : batchOf ⟨n - 1, lt_of_le_of_lt (Nat.sub_le _ _) hn⟩ = batchOf ⟨n, hn⟩ := Fin.ext (by simp only [batchOf]; omega)
      have e2 : (n - 1) / 20 % 5 = n / 20 % 5 := by omega
      have e3 : (n - 1) % 20 + 1 = n % 20 := by omega
      rw [e1, e2, e3]

/-- The accumulator after point t, at (r, f). -/
theorem scratch_after (c : Dev nD) (t : Fin cfg0.N) (r : Fin 2000) (f : Fin 64) :
    (outsAt0 m c t.val t.isLt).2 (ix2 r f)
      = Cert.Hand.tiledSum (Cert.Hand.padMsg (m ((c : Thread nD τ).loc main_arg0))) (Cert.Hand.padIdx (m ((c : Thread nD τ).loc main_arg1)))
          (⟨t.val / 100, by have := lt_of_lt_of_eq t.isLt (show cfg0.N = 400 from N_0); omega⟩ : Fin 4)
          (t.val / 20 % 5 * 2000 + r.val) f (t.val % 20 + 1) :=
  scratch_after_nat m c t.val t.isLt r f

/-- The output block after point t is the accumulator after point t. -/
theorem out_after (c : Dev nD) (t : Fin cfg0.N) (r : Fin 2000) (f : Fin 64) :
    (outsAt0 m c t.val t.isLt).1 (ix3 (0 : Fin 1) r f) = (outsAt0 m c t.val t.isLt).2 (ix2 r f) := by
  by_cases h0 : t.val % 20 = 0
  · rw [outsAt0_A m c t h0]
    dsimp only
    rw [out0_A_2_eq, sout0_A_0_eq, pay3_apply]
  · rw [outsAt0_B m c t h0]
    dsimp only
    rw [out0_B_2_eq, sout0_B_0_eq, pay3_apply]

end Cert.KernelIdeal.Hand

end
-- ==== Proof.Final.lean ====
/-
  From blocks to the array: after the run the output array is the scatter-sum.

  The output window's block (b, n) is written back once, after the last edge tile (grid points t with t mod 20 = 19),
  when the accumulator holds the tiled sum over all 20 edge tiles; those blocks tile the array.
-/
import proofs.«418181_j61710090109692_2_alg».proof.Proof.Gen.KernelIdeal.Value
import proofs.«418181_j61710090109692_2_alg».proof.Proof.Accum
import proofs.«418181_j61710090109692_2_alg».proof.Proof.SumLemmas

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The output window's block index at every grid point t = 100 b + 20 n + eo: batch b, node tile n, feature block 0. -/
theorem final_idx_facts : ∀ t : Fin cfg0.N, win0_2.index t (0 : Fin 3) = t.val / 100
    ∧ win0_2.index t (1 : Fin 3) = t.val / 20 % 5 ∧ win0_2.index t (2 : Fin 3) = 0 :=
  (by decide +kernel : ∀ t : Fin grid0.N, _)

/-- What a point t with t mod 20 = 19 writes back is its block of the scatter-sum: the output block holds the
    accumulator, the accumulator holds the tiled sum over all 20 edge tiles for batch t / 100 and node
    2000 · (t / 20 mod 5) + r, which is the scatter-sum there; and element (0, r, f) of the block sits in the array
    at (t / 100, 2000 · (t / 20 mod 5) + r, f). -/
theorem final_flushed_eq (c : Dev nD) (t : Fin cfg0.N) (hf : (cfg0.win 2).flush t = true) :
    (dats m 0 c).flushed 2 t = ((cfg0.win 2).blk t).view.read (Elt Ideal)
      (Cert.Hand.scatterSum (m ((c : Thread nD τ).loc main_arg0)) (m ((c : Thread nD τ).loc main_arg1))) := by
  have h19 : t.val % 20 = 19 := (flush0_2 t).mp hf
  have hN : t.val < 400 := lt_of_lt_of_eq t.isLt (show cfg0.N = 400 from N_0)
  obtain ⟨e0, e1, e2⟩ := final_idx_facts t
  rw [Cert.KernelIdeal.Value.flushed2]
  funext y
  have hy0 : (y 0).val < 1 := (y 0).isLt
  have hy1 : (y 1).val < 2000 := (y 1).isLt
  have hy2 : (y 2).val < 64 := (y 2).isLt
  have hb : t.val / 100 < 4 := by omega
  have hn : t.val / 20 % 5 * 2000 + (y 1).val < 10000 := by omega
  show (outsAt0 m c t.val t.isLt).1 ((cfg0.win 2).xinj (grid0.coords t) y) = _
  rw [View.read_apply]
  -- the block's own index of y is (0, r, f)
  have hx : (cfg0.win 2).xinj (grid0.coords t) y = ix3 (0 : Fin 1) (⟨(y 1).val, hy1⟩ : Fin 2000) (⟨(y 2).val, hy2⟩ : Fin 64) := by
    funext a; apply Fin.ext
    match a with
    | ⟨0, _⟩ => show (y 0).val = 0; omega
    | ⟨1, _⟩ => rfl
    | ⟨2, _⟩ => rfl
  -- and its place in the array is block index × block size + coordinate, axis by axis
  have hemb : ((cfg0.win 2).blk t).view.emb y
      = ix3 (⟨t.val / 100, hb⟩ : Fin 4) (⟨t.val / 20 % 5 * 2000 + (y 1).val, hn⟩ : Fin 10000) (⟨(y 2).val, hy2⟩ : Fin 64) := by
    funext a; apply Fin.ext
    match a with
    | ⟨0, _⟩ => show win0_2.index t (0 : Fin 3) * 1 + 1 * (y 0).val = t.val / 100; omega
    | ⟨1, _⟩ => show win0_2.index t (1 : Fin 3) * 2000 + 1 * (y 1).val = t.val / 20 % 5 * 2000 + (y 1).val; omega
    | ⟨2, _⟩ => show win0_2.index t (2 : Fin 3) * 64 + 1 * (y 2).val = (y 2).val; omega
  rw [hx, out_after m c t ⟨(y 1).val, hy1⟩ ⟨(y 2).val, hy2⟩, scratch_after m c t ⟨(y 1).val, hy1⟩ ⟨(y 2).val, hy2⟩, hemb, cast_eq,
    show t.val % 20 + 1 = 20 from by omega]
  exact Cert.Hand.tiledSum_eq_scatterSum (m ((c : Thread nD τ).loc main_arg0)) (m ((c : Thread nD τ).loc main_arg1))
    (⟨t.val / 100, hb⟩ : Fin 4) (⟨t.val / 20 % 5 * 2000 + (y 1).val, hn⟩ : Fin 10000) (⟨(y 2).val, hy2⟩ : Fin 64)

/-- An index of the output array is in point t's block iff each coordinate is in the block's range on its axis. -/
theorem final_mem_blk (t : Fin cfg0.N) (i : S4x10000x64.Idx) :
    i ∈ ((cfg0.win 2).blk t).view.set ↔ ∀ a : Fin 3, win0_2.index t a * S1x2000x64.size a ≤ (i a).val
      ∧ (i a).val < win0_2.index t a * S1x2000x64.size a + S1x2000x64.size a := by
  show i ∈ ((View.whole main_v3).slice (win0_2.rect t)).set ↔ _
  rw [View.set_slice_whole, Rect.mem_set_unit]
  exact Iff.rfl

/-- The written-back blocks tile the array: index (b, n, f) lies in the block written back at point
    100 b + 20 (n / 2000) + 19. -/
theorem final_cover (i : S4x10000x64.Idx) :
    ∃ t : Fin cfg0.N, (cfg0.win 2).flush t = true ∧ i ∈ ((cfg0.win 2).blk t).view.set := by
  have hi0 : (i 0).val < 4 := (i 0).isLt
  have hi1 : (i 1).val < 10000 := (i 1).isLt
  have hi2 : (i 2).val < 64 := (i 2).isLt
  obtain ⟨t, ht⟩ : ∃ t : Fin cfg0.N, t.val = 100 * (i 0).val + 20 * ((i 1).val / 2000) + 19 :=
    ⟨⟨100 * (i 0).val + 20 * ((i 1).val / 2000) + 19, lt_of_lt_of_eq (by omega) (show 400 = cfg0.N from N_0.symm)⟩, rfl⟩
  obtain ⟨e0, e1, e2⟩ := final_idx_facts t
  refine ⟨t, (flush0_2 t).mpr (by omega), ?_⟩
  rw [final_mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2000 ≤ (i 1).val ∧ (i 1).val < win0_2.index t (1 : Fin 3) * 2000 + 2000; omega
  | ⟨2, _⟩ => show win0_2.index t (2 : Fin 3) * 64 ≤ (i 2).val ∧ (i 2).val < win0_2.index t (2 : Fin 3) * 64 + 64; omega

/-- The output array after the run is the scatter-sum of the argument arrays. -/
theorem final_array (c : Dev nD) :
    (dats m 0 c).arrAt 2 cfg0.N
      = Cert.Hand.scatterSum (m ((c : Thread nD τ).loc main_arg0)) (m ((c : Thread nD τ).loc main_arg1)) :=
  (dats m 0 c).arrAt_eq_of_cover 2 _ (fun t hf => final_flushed_eq m c t hf) final_cover

/-- The kernel's run: it terminates with the result at the scatter-sum and the arguments unchanged. -/
theorem kernel_run : θ_run defs (onTc (τ := τ) (main (F := Ideal))) ⟨m, fun _ => 0, ρ⟩ fun r => ∀ c : Dev nD,
      r.2.mem ((c : Thread nD τ).loc main_v3)
        = Cert.Hand.scatterSum (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_array m c), (h c).2⟩)
    (Cert.KernelIdeal.Value.run_blocks m ρ)

end Cert.KernelIdeal.Hand

end
-- ==== Proof.RefValue.lean ====
/-
  The reference's result is the scatter-sum.

  The reference pairs each edge of batch b with the index vector (b, w), where w is the edge's index word with 10000
  added when it is negative, and adds the edge's message row into row w of batch b of a zero array; an index vector
  outside the array adds nothing. Batch numbers are never negative, and under the precondition no index word is, so w is
  the word itself: update (b', e, f') lands on (b, n, f) exactly when b' = b, f' = f and the word of (b, e) read signed is n.
-/
import proofs.«418181_j61710090109692_2_alg».proof.Proof.Gen.ReferenceIdeal.Read
import proofs.«418181_j61710090109692_2_alg».proof.Proof.Spec
import Idealize.ShloMosaic.PureOps.Ideal.Laws
import Idealize.ShloMosaic.Lib.ValueIdx
import Idealize.ShloMosaic.Lib.Pipeline.Value
import Idealize.ShloMosaic.Lib.Affine
import Mathlib.Algebra.BigOperators.Group.Finset.Basic
import Mathlib.Algebra.BigOperators.Fin

noncomputable section

namespace Cert.ReferenceIdeal.Hand

open Cert.ReferenceIdeal Cert.ReferenceIdeal.Gen Idealize.ShloMosaic Idealize.ShloMosaic.TcCoe Idealize.ShloMosaic.ValueIdx

/-! ## Where an update lands -/

/-- The scatter's dimension numbers: the feature axis of the updates a window axis, the batch and node axes of the
    operand inserted and indexed by the two index words. -/
private abbrev sd : ScatterDims S4x10000x64 S4x320000x2 S4x320000x64 :=
  scatter_S4x10000x64_S4x320000x2_S4x320000x64_2_01_01_2

section Lands
variable {w : Nat} (idx : IVec S4x320000x2 w) (j : S4x320000x64.Idx)

/-- On the batch axis the window of update j starts at the first index word of j's edge, read signed … -/
private theorem refvalue_start_zero :
    sd.start j idx 0 = (idx (ix3 (j 0) (j 1) 0)).toInt := by
  unfold ScatterDims.start
  rw [dif_pos (show (0 : Fin 3) ∈ sd.scatterDimsToOperandDims from by decide)]
  have hsi : sd.siIdx j ⟨List.idxOf (0 : Fin 3) sd.scatterDimsToOperandDims,
      List.idxOf_lt_length_iff.2 (by decide)⟩ = ix3 (j 0) (j 1) 0 := by
    funext b; refine Fin.ext ?_
    match b with
    | ⟨0, _⟩ => rfl
    | ⟨1, _⟩ => rfl
    | ⟨2, _⟩ => rfl
  rw [hsi]
  rfl

/-- … on the node axis at the second index word, read signed … -/
private theorem refvalue_start_one :
    sd.start j idx 1 = (idx (ix3 (j 0) (j 1) 1)).toInt := by
  unfold ScatterDims.start
  rw [dif_pos (show (1 : Fin 3) ∈ sd.scatterDimsToOperandDims from by decide)]
  have hsi : sd.siIdx j ⟨List.idxOf (1 : Fin 3) sd.scatterDimsToOperandDims,
      List.idxOf_lt_length_iff.2 (by decide)⟩ = ix3 (j 0) (j 1) 1 := by
    funext b; refine Fin.ext ?_
    match b with
    | ⟨0, _⟩ => rfl
    | ⟨1, _⟩ => rfl
    | ⟨2, _⟩ => rfl
  rw [hsi]
  rfl

/-- … and on the feature axis at 0. -/
private theorem refvalue_start_two : sd.start j idx 2 = 0 := by
  unfold ScatterDims.start
  rw [dif_neg (show (2 : Fin 3) ∉ sd.scatterDimsToOperandDims from by decide)]

/-- The window coordinate of update j is 0 on the batch axis … -/
private theorem refvalue_window_zero : sd.window j 0 = 0 := by
  unfold ScatterDims.window
  rw [dif_neg (show (0 : Fin 3) ∉ sd.sKept from by decide)]

/-- … 0 on the node axis … -/
private theorem refvalue_window_one : sd.window j 1 = 0 := by
  unfold ScatterDims.window
  rw [dif_neg (show (1 : Fin 3) ∉ sd.sKept from by decide)]

/-- … and j's feature on the feature axis. -/
private theorem refvalue_window_two : sd.window j 2 = (j 2).val := by
  unfold ScatterDims.window
  rw [dif_pos (show (2 : Fin 3) ∈ sd.sKept from by decide)]
  rfl

end Lands

/-- Update j lands at i exactly when its two index words, read signed, are i's batch and node, and its feature is i's. -/
private theorem refvalue_resultIdx_iff {w : Nat} (idx : IVec S4x320000x2 w) (j : S4x320000x64.Idx) (i : S4x10000x64.Idx) :
    sd.resultIdx? j idx = some i
      ↔ (idx (ix3 (j 0) (j 1) 0)).toInt = ((i 0).val : ℤ) ∧ (idx (ix3 (j 0) (j 1) 1)).toInt = ((i 1).val : ℤ)
        ∧ (j 2).val = (i 2).val := by
  have i0 : (i 0).val < 4 := (i 0).isLt
  have i1 : (i 1).val < 10000 := (i 1).isLt
  have i2 : (i 2).val < 64 := (i 2).isLt
  have j2 : (j 2).val < 64 := (j 2).isLt
  unfold ScatterDims.resultIdx?
  split
  · next h =>
    rw [Option.some.injEq]
    constructor
    · intro hf
      have e0 := congrArg (fun f => (f 0).val) hf
      have e1 := congrArg (fun f => (f 1).val) hf
      have e2 := congrArg (fun f => (f 2).val) hf
      have h0 := h 0
      have h1 := h 1
      simp only [refvalue_start_zero, refvalue_start_one, refvalue_start_two, refvalue_window_zero,
        refvalue_window_one, refvalue_window_two] at e0 e1 e2 h0 h1
      omega
    · rintro ⟨h0, h1, h2⟩
      funext a
      refine Fin.ext ?_
      match a with
      | ⟨0, _⟩ =>
        show (sd.start j idx 0 + (sd.window j 0 : ℕ)).toNat = (i 0).val
        rw [refvalue_start_zero, refvalue_window_zero]
        omega
      | ⟨1, _⟩ =>
        show (sd.start j idx 1 + (sd.window j 1 : ℕ)).toNat = (i 1).val
        rw [refvalue_start_one, refvalue_window_one]
        omega
      | ⟨2, _⟩ =>
        show (sd.start j idx 2 + (sd.window j 2 : ℕ)).toNat = (i 2).val
        rw [refvalue_start_two, refvalue_window_two]
        omega
  · next h =>
    constructor
    · intro hf
      exact absurd hf (by simp)
    · rintro ⟨h0, h1, h2⟩
      exfalso
      apply h
      intro a
      match a with
      | ⟨0, _⟩ =>
        show 0 ≤ sd.start j idx 0 + (sd.window j 0 : ℕ) ∧ sd.start j idx 0 + (sd.window j 0 : ℕ) < (4 : ℤ)
        rw [refvalue_start_zero, refvalue_window_zero]
        omega
      | ⟨1, _⟩ =>
        show 0 ≤ sd.start j idx 1 + (sd.window j 1 : ℕ) ∧ sd.start j idx 1 + (sd.window j 1 : ℕ) < (10000 : ℤ)
        rw [refvalue_start_one, refvalue_window_one]
        omega
      | ⟨2, _⟩ =>
        show 0 ≤ sd.start j idx 2 + (sd.window j 2 : ℕ) ∧ sd.start j idx 2 + (sd.window j 2 : ℕ) < (64 : ℤ)
        rw [refvalue_start_two, refvalue_window_two]
        omega

/-! ## The index vectors -/

/-- The select on "the word is negative" between the word plus a count and the word itself is the word when it is
    not negative. -/
private theorem refvalue_wrap (s n : BitVec 32) (h : 0 ≤ s.toInt) :
    Scalar.select (IntOp.cmpi .slt s 0#32) (IntOp.addi s n) s = s := by
  have hz : (0#32 : BitVec 32).toInt = 0 := rfl
  have hc : ¬IntOp.cmpi .slt s 0#32 = 1#1 := fun hc => by
    have := IntOp.cmpi_slt.mp hc
    omega
  rw [eq_zero_of_ne_one hc, select_zero]

/-- A batch number as a word reads signed as itself. -/
private theorem refvalue_toInt_batch (b : Fin 4) : (BitVec.ofNat 32 b.val).toInt = (b.val : ℤ) := by
  match b with
  | ⟨0, _⟩ => rfl
  | ⟨1, _⟩ => rfl
  | ⟨2, _⟩ => rfl
  | ⟨3, _⟩ => rfl

section Index
variable (x1 : (⟨S4x320000, .i32⟩ : BufTy).Contents (Elt Ideal)) (b' : Fin 4) (e : Fin 320000)

/-- The first index word of edge (b', e) is the batch number b'. -/
private theorem refvalue_idx_zero :
    Read.val_main_v16 (F := Ideal) x1 (ix3 b' e 0) = BitVec.ofNat 32 b'.val := by
  unfold Read.val_main_v16
  refine (concatenate_pair_apply_left (t := S4x320000x2) (s₁ := S4x320000x1) (s₂ := S4x320000x1) (2 : Fin 3) _ _
    concatenates_S4x320000x1_S4x320000x1_S4x320000x2_d2 (ix3 b' e (0 : Fin 2)) rfl (ix3 b' e (0 : Fin 1)) (fun b => by
      match b with
      | ⟨0, _⟩ => rfl
      | ⟨1, _⟩ => rfl
      | ⟨2, _⟩ => rfl)).trans ?_
  rw [Read.val_main_v14_apply, Read.val_main_v13_apply, Read.val_main_v7_apply, Read.val_main_v4_apply,
    Read.val_main_v6_apply, Read.val_main_v1_apply, Read.val_main_v0_apply, Read.val_main_v3_apply,
    Read.val_main_c_apply]
  show Scalar.select (IntOp.cmpi .slt (BitVec.ofNat 32 b'.val) 0#32) (IntOp.addi (BitVec.ofNat 32 b'.val) _)
    (BitVec.ofNat 32 b'.val) = _
  refine refvalue_wrap _ _ ?_
  rw [refvalue_toInt_batch]
  omega

/-- The second index word of edge (b', e) is the edge's own word when that is not negative. -/
private theorem refvalue_idx_one (hpre : ∀ j : S4x320000.Idx, 0 ≤ (x1 j).toInt) :
    Read.val_main_v16 (F := Ideal) x1 (ix3 b' e 1) = x1 (ix2 b' e) := by
  unfold Read.val_main_v16
  refine (concatenate_pair_apply_right (t := S4x320000x2) (s₁ := S4x320000x1) (s₂ := S4x320000x1) (2 : Fin 3) _ _
    concatenates_S4x320000x1_S4x320000x1_S4x320000x2_d2 (ix3 b' e (1 : Fin 2)) rfl rfl (ix3 b' e (0 : Fin 1)) (fun b hb => by
      match b, hb with
      | ⟨0, _⟩, _ => rfl
      | ⟨1, _⟩, _ => rfl
      | ⟨2, _⟩, hb => exact absurd rfl hb) rfl).trans ?_
  rw [Read.val_main_v15_apply, Read.val_main_v12_apply, Read.val_main_v9_apply, Read.val_main_v11_apply,
    Read.val_main_v8_apply, Read.val_main_c_1_apply]
  have hi : Read.idx_main_v15 (ix3 b' e (0 : Fin 1)) = ix2 b' e := by
    funext a
    match a with
    | ⟨0, _⟩ => rfl
    | ⟨1, _⟩ => rfl
  rw [hi]
  exact refvalue_wrap _ _ (hpre _)

end Index

/-! ## The sum over the updates, by coordinates -/

/-- A rank-3 index set is the product of its three coordinate ranges … -/
private def refvalue_idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem refvalue_sum_idx3 {M : Type*} [AddCommMonoid M] {n0 n1 n2 : Nat}
    (f : (⟨3, ![n0, n1, n2]⟩ : Shape).Idx → M) :
    ∑ i, f i = ∑ a : Fin n0, ∑ b : Fin n1, ∑ c : Fin n2, f (ix3 a b c) := by
  rw [← Equiv.sum_comp (refvalue_idxEquiv3 (n0 := n0) (n1 := n1) (n2 := n2)).symm f, Fintype.sum_prod_type]
  refine Finset.sum_congr rfl fun a _ => ?_
  rw [Fintype.sum_prod_type]
  rfl

/-- Update (b', e, f') of the reference lands at i exactly when b' is i's batch, f' is i's feature and the word of
    edge (b', e), read signed, is i's node. -/
private theorem refvalue_lands_iff (x1 : (⟨S4x320000, .i32⟩ : BufTy).Contents (Elt Ideal))
    (hpre : ∀ j : S4x320000.Idx, 0 ≤ (x1 j).toInt) (b' : Fin 4) (e : Fin 320000) (f' : Fin 64) (i : S4x10000x64.Idx) :
    sd.resultIdx? (ix3 b' e f') (Read.val_main_v16 (F := Ideal) x1) = some i
      ↔ b' = (⟨(i 0).val, (i 0).isLt⟩ : Fin 4) ∧ (x1 (ix2 b' e)).toInt = ((i 1).val : ℤ)
        ∧ f' = (⟨(i 2).val, (i 2).isLt⟩ : Fin 64) := by
  rw [refvalue_resultIdx_iff]
  show (Read.val_main_v16 (F := Ideal) x1 (ix3 b' e 0)).toInt = _ ∧ (Read.val_main_v16 (F := Ideal) x1 (ix3 b' e 1)).toInt = _
    ∧ f'.val = _ ↔ _
  rw [refvalue_idx_zero, refvalue_idx_one x1 b' e hpre, refvalue_toInt_batch, Fin.ext_iff, Fin.ext_iff]
  constructor
  · rintro ⟨h0, h1, h2⟩
    exact ⟨by exact_mod_cast h0, h1, h2⟩
  · rintro ⟨h0, h1, h2⟩
    exact ⟨by exact_mod_cast h0, h1, h2⟩

/-! ## The reference's value -/

/-- With no negative index word, the reference's result is the scatter-sum of the messages at the index words. -/
theorem ref_value (x0 : (⟨S4x320000x64, .f32⟩ : BufTy).Contents (Elt Ideal)) (x1 : (⟨S4x320000, .i32⟩ : BufTy).Contents (Elt Ideal))
    (hpre : ∀ j : S4x320000.Idx, 0 ≤ (x1 j).toInt) :
    Cert.ReferenceIdeal.Read.val_main_v17 (F := Ideal) x0 x1 = Cert.Hand.scatterSum x0 x1 := by
  funext i
  show Ideal.hostScatterAdd sd (Read.val_main_v2 (F := Ideal)) (Read.val_main_v16 (F := Ideal) x1) x0 i = _
  unfold Ideal.hostScatterAdd
  rw [Read.val_main_v2_apply, Read.val_main_cst_apply]
  show Ideal.ofBits .f32 0x00000000#32 + _ = _
  rw [Ideal.ofBits_zero_f32, zero_add, Finset.sum_filter, refvalue_sum_idx3]
  unfold Cert.Hand.scatterSum
  simp only [refvalue_lands_iff x1 hpre]
  -- of the batches only i's contributes
  rw [Finset.sum_eq_single (⟨(i 0).val, (i 0).isLt⟩ : Fin 4)
    (fun a _ ha => Finset.sum_eq_zero fun b _ => Finset.sum_eq_zero fun c _ => if_neg fun h => ha h.1)
    (fun h => absurd (Finset.mem_univ _) h)]
  refine Finset.sum_congr rfl fun e _ => ?_
  -- and of the features only i's
  rw [Finset.sum_eq_single (⟨(i 2).val, (i 2).isLt⟩ : Fin 64)
    (fun c _ hc => if_neg fun h => hc h.2.2)
    (fun h => absurd (Finset.mem_univ _) h)]
  by_cases hP : (x1 (ix2 (⟨(i 0).val, (i 0).isLt⟩ : Fin 4) e)).toInt = ((i 1).val : ℤ)
  · rw [if_pos ⟨rfl, hP, rfl⟩, if_pos hP]
  · rw [if_neg fun h => hP h.2.1, if_neg hP]

end Cert.ReferenceIdeal.Hand

end
-- ==== Proof.PreDecode.lean ====
/-
  The precondition read off: every index word is nonnegative as a signed integer.

  The precondition is a conjunction of three "all" reductions; its last conjunct is the reduction by "and" of the
  signed comparison of each index word with 0.
-/
import proofs.«418181_j61710090109692_2_alg».proof.Pre_finite_inputs
import proofs.«418181_j61710090109692_2_alg».proof.Proof.Gen.Pre_finite_inputs
import Idealize.ShloMosaic.PureOps.Ideal
import Idealize.ShloMosaic.Lib.ReduceAll
import Idealize.ShloMosaic.Lib.StableHlo.Predicate

noncomputable section

namespace Cert.Pre_finite_inputs.Hand

open Cert.Pre_finite_inputs Idealize.ShloMosaic

/-- If the precondition holds of the three argument arrays, no index word is negative.

    The precondition's value is the "and" of three one-bit words; being 1, each of them is 1. The last is the
    reduction by "and", over every position, of the bit "index word ≥ 0 (signed)"; a reduction by "and" that
    comes out 1 met a 1 at every position. At position `j` the compared word is the scalar 0 broadcast, so the
    bit says `(0 : word).toInt ≤ (a1 j).toInt`, which is the claim. -/
theorem nonneg_of_pre [Cert.Pre_finite_inputs.Facts] (a0 : FVec Ideal S4x320000x64 .f32) (a1 : IVec S4x320000 32) (a2 : FVec Ideal S4x10000x64 .f32)
    (h : Cert.Pre_finite_inputs.fn (F := Ideal) a0 a1 a2 = fun _ => 1#1) :
    ∀ j : S4x320000.Idx, 0 ≤ (a1 j).toInt := by
  intro j
  -- the precondition at the one index of its scalar result
  have h0 := congrFun h (fun d => d.elim0)
  unfold Cert.Pre_finite_inputs.fn at h0
  dsimp only at h0
  -- the last conjunct: the "all" over the signed comparisons
  have h1 := (IntOp.andi_eq_one.1 h0).2
  -- a scalar (rank 0) array has exactly one index: there is no coordinate on which two indices could differ
  haveI : Subsingleton S_.Idx := ⟨fun a b => funext fun d => d.elim0⟩
  -- hence the comparison bit at `j`
  have h2 := Host.reduce_andi_all _ _ _ _ _ h1 j
  -- the right operand at `j` is the broadcast scalar 0
  have h3 : IntOp.cmpi .sge (a1 j) (0#32) = 1#1 := h2
  have h4 : (0#32 : BitVec 32).toInt ≤ (a1 j).toInt := IntOp.cmpi_sge.1 h3
  have h5 : (0#32 : BitVec 32).toInt = 0 := by decide
  rwa [h5] at h4

end Cert.Pre_finite_inputs.Hand

end
-- ==== Proof.lean ====
/-
  The kernel scatters per-edge message rows into per-node rows by a one-hot matrix product, edge tile by edge tile, into
  an accumulator; the reference scatters them with an accumulating scatter. Over the extended reals both results are,
  at (batch b, node n, feature f), the sum of the messages at f of the edges of batch b whose index word is n: a product
  with a one-hot entry is the message or 0 whatever the message is, and only the order of a finite sum differs, so no
  finiteness is used. The reference wraps a negative index word by adding 10000 where the kernel matches no row, so the
  precondition asks that no index word is negative; an index word of 10000 or more adds nothing on either side.
  The three frames are the generated ones (the reference's is its generated run with the result dropped); the ideal
  pass recorded no rewrite.
-/
import proofs.«418181_j61710090109692_2_alg».proof.Defs
import proofs.«418181_j61710090109692_2_alg».proof.Proof.Gen.Kernel
import proofs.«418181_j61710090109692_2_alg».proof.Proof.Gen.Kernel.Skeleton
import proofs.«418181_j61710090109692_2_alg».proof.Proof.Gen.Kernel.Loops
import proofs.«418181_j61710090109692_2_alg».proof.Proof.Gen.Kernel.Launch
import proofs.«418181_j61710090109692_2_alg».proof.Proof.Gen.Kernel.Points
import proofs.«418181_j61710090109692_2_alg».proof.Proof.Gen.Kernel.Frame
import proofs.«418181_j61710090109692_2_alg».proof.Proof.Gen.KernelIdeal
import proofs.«418181_j61710090109692_2_alg».proof.Proof.Gen.KernelIdeal.Skeleton
import proofs.«418181_j61710090109692_2_alg».proof.Proof.Gen.KernelIdeal.Loops
import proofs.«418181_j61710090109692_2_alg».proof.Proof.Gen.KernelIdeal.Launch
import proofs.«418181_j61710090109692_2_alg».proof.Proof.Gen.KernelIdeal.Points
import proofs.«418181_j61710090109692_2_alg».proof.Proof.Gen.KernelIdeal.Frame
import proofs.«418181_j61710090109692_2_alg».proof.Proof.Gen.ReferenceIdeal
import proofs.«418181_j61710090109692_2_alg».proof.Proof.Gen.Pre_finite_inputs
import proofs.«418181_j61710090109692_2_alg».proof.Proof.Gen.KernelIdeal.Value
import proofs.«418181_j61710090109692_2_alg».proof.Proof.Gen.ReferenceIdeal.Run
import proofs.«418181_j61710090109692_2_alg».proof.Proof.Gen.ReferenceIdeal.Read
import Idealize.ShloMosaic.Adequacy
import Idealize.ShloMosaic.Init

import proofs.«418181_j61710090109692_2_alg».proof.Proof.Final
import proofs.«418181_j61710090109692_2_alg».proof.Proof.RefValue
import proofs.«418181_j61710090109692_2_alg».proof.Proof.PreDecode

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the scatter-sum of the (agreeing) argument arrays. -/
theorem algebraic : Cert.algebraic_KernelIdeal_ReferenceIdeal := by
  intro m ρ m' ρ' hpre hagree
  refine ⟨fun c => Cert.Hand.scatterSum (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1]
  exact Cert.ReferenceIdeal.Hand.ref_value _ _
    (Cert.Pre_finite_inputs.Hand.nonneg_of_pre _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
